-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1 : Shape := ⟨2, ![65536, 1]⟩
abbrev S1024x1x1 : Shape := ⟨3, ![1024, 1, 1]⟩
abbrev S1024x1 : Shape := ⟨2, ![1024, 1]⟩
abbrev S_ : Shape := ⟨0, ![]⟩

class Facts : Prop where
  bcast_S_S65536x1 : S_.BroadcastsInDim S65536x1 (![] : Fin 0 → Fin S65536x1.rank)
  reducesTo_S65536x1_S_d0_1 : S65536x1.ReducesTo [0, 1] S_
  h_S_ : 0 < S_.numel
  bcast_S_S1024x1x1 : S_.BroadcastsInDim S1024x1x1 (![] : Fin 0 → Fin S1024x1x1.rank)
  reducesTo_S1024x1x1_S_d0_1_2 : S1024x1x1.ReducesTo [0, 1, 2] S_
  bcast_S_S1024x1 : S_.BroadcastsInDim S1024x1 (![] : Fin 0 → Fin S1024x1.rank)
  reducesTo_S1024x1_S_d0_1 : S1024x1.ReducesTo [0, 1] S_

variable [Facts]

def fn {F : FTy → Type} [FloatOps F] (main_arg0 : FVec F S65536x1 .f32) (main_arg1 : FVec F S1024x1x1 .f32) (main_arg2 : FVec F S1024x1 .f32) : IVec S_ 1 :=
  let main_v0 : FVec F S65536x1 .f32 := Host.absf main_arg0
  let main_cst : FVec F S_ .f32 := constant S_ .f32 0x7F800000#32
  let main_v1 : FVec F S65536x1 .f32 := broadcastInDim S65536x1 ![] bcast_S_S65536x1 main_cst
  let main_v2 : IVec S65536x1 1 := cmpf .olt main_v0 main_v1
  let main_c : IVec S_ 1 := constantI S_ 1 1#1
  let main_v3 : IVec S_ 1 := (fun x v => Host.reduce IntOp.andi x v reducesTo_S65536x1_S_d0_1 h_S_) main_v2 main_c
  let main_v4 : FVec F S1024x1x1 .f32 := Host.absf main_arg1
  let main_cst_0 : FVec F S_ .f32 := constant S_ .f32 0x7F800000#32
  let main_v5 : FVec F S1024x1x1 .f32 := broadcastInDim S1024x1x1 ![] bcast_S_S1024x1x1 main_cst_0
  let main_v6 : IVec S1024x1x1 1 := cmpf .olt main_v4 main_v5
  let main_c_1 : IVec S_ 1 := constantI S_ 1 1#1
  let main_v7 : IVec S_ 1 := (fun x v => Host.reduce IntOp.andi x v reducesTo_S1024x1x1_S_d0_1_2 h_S_) main_v6 main_c_1
  let main_v8 : IVec S_ 1 := andi main_v3 main_v7
  let main_v9 : FVec F S1024x1 .f32 := Host.absf main_arg2
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  main_v13
-- ==== Kernel.lean ====
abbrev S65536x1 : Shape := ⟨2, ![65536, 1]⟩
abbrev S1024x1x1 : Shape := ⟨3, ![1024, 1, 1]⟩
abbrev S1024x1 : Shape := ⟨2, ![1024, 1]⟩
abbrev S1x1024 : Shape := ⟨2, ![1, 1024]⟩
abbrev S65536x2048 : Shape := ⟨2, ![65536, 2048]⟩
abbrev S1024x2048 : Shape := ⟨2, ![1024, 2048]⟩
abbrev S1024x1024 : Shape := ⟨2, ![1024, 1024]⟩
abbrev S1024x1x2 : Shape := ⟨3, ![1024, 1, 2]⟩
abbrev S1024x2 : Shape := ⟨2, ![1024, 2]⟩
abbrev S1024x2x1 : Shape := ⟨3, ![1024, 2, 1]⟩
abbrev S1024x2x2 : Shape := ⟨3, ![1024, 2, 2]⟩
abbrev S1024x4 : Shape := ⟨2, ![1024, 4]⟩
abbrev S1024x4x1 : Shape := ⟨3, ![1024, 4, 1]⟩
abbrev S1024x4x2 : Shape := ⟨3, ![1024, 4, 2]⟩
abbrev S1024x8 : Shape := ⟨2, ![1024, 8]⟩
abbrev S1024x8x1 : Shape := ⟨3, ![1024, 8, 1]⟩
abbrev S1024x8x2 : Shape := ⟨3, ![1024, 8, 2]⟩
abbrev S1024x16 : Shape := ⟨2, ![1024, 16]⟩
abbrev S1024x16x1 : Shape := ⟨3, ![1024, 16, 1]⟩
abbrev S1024x16x2 : Shape := ⟨3, ![1024, 16, 2]⟩
abbrev S1024x32 : Shape := ⟨2, ![1024, 32]⟩
abbrev S1024x32x1 : Shape := ⟨3, ![1024, 32, 1]⟩
abbrev S1024x32x2 : Shape := ⟨3, ![1024, 32, 2]⟩
abbrev S1024x64 : Shape := ⟨2, ![1024, 64]⟩
abbrev S1024x64x1 : Shape := ⟨3, ![1024, 64, 1]⟩
abbrev S1024x64x2 : Shape := ⟨3, ![1024, 64, 2]⟩
abbrev S1024x128 : Shape := ⟨2, ![1024, 128]⟩
abbrev S1024x128x1 : Shape := ⟨3, ![1024, 128, 1]⟩
abbrev S1024x128x2 : Shape := ⟨3, ![1024, 128, 2]⟩
abbrev S1024x256 : Shape := ⟨2, ![1024, 256]⟩
abbrev S1024x256x1 : Shape := ⟨3, ![1024, 256, 1]⟩
abbrev S1024x256x2 : Shape := ⟨3, ![1024, 256, 2]⟩
abbrev S1024x512 : Shape := ⟨2, ![1024, 512]⟩
abbrev S1024x512x1 : Shape := ⟨3, ![1024, 512, 1]⟩
abbrev S1024x512x2 : Shape := ⟨3, ![1024, 512, 2]⟩

abbrev nBuf : Space → Nat
  | .hbm => 6
  | .vmem => 6
  | .smem => 0
  | _ => 0

abbrev bufTy : (tb : Table) → Fin (tcTables nBuf tb) → BufTy
  | .hbm, ⟨0, _⟩ => ⟨S65536x1, .f32⟩
  | .hbm, ⟨1, _⟩ => ⟨S1024x1x1, .f32⟩
  | .hbm, ⟨2, _⟩ => ⟨S1024x1, .f32⟩
  | .hbm, ⟨3, _⟩ => ⟨S1x1024, .f32⟩
  | .hbm, ⟨4, _⟩ => ⟨S1x1024, .f32⟩
  | .hbm, ⟨5, _⟩ => ⟨S65536x2048, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x2048, .f32⟩
  | .local _ .vmem, ⟨5, _⟩ => ⟨S1024x2048, .f32⟩
  | _, _ => ⟨S65536x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024x1x1_S1x1024 : S1024x1x1.ShapeCasts S1x1024
  shapeCasts_S1024x1_S1x1024 : S1024x1.ShapeCasts S1x1024
  inb_S1024x1_S1024x1_0_0 : ∀ a, (![0, 0] : Fin 2 → Nat) a + S1024x1.size a ≤ S1024x1.size a
  h_S1024x1 : 0 < S1024x1.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x2048_S1024x1_0_0 : ∀ a, (![0, 0] : Fin 2 → Nat) a + S1024x1.size a ≤ S1024x2048.size a
  inb_S1024x2048_S1024x1_0_1 : ∀ a, (![0, 1] : Fin 2 → Nat) a + S1024x1.size a ≤ S1024x2048.size a
  slices_S1024x1024_o0_1_S1024x1 : S1024x1024.Slices ![0, 1] S1024x1
  shapeCasts_S1024x1_S1024x1x1 : S1024x1.ShapeCasts S1024x1x1
  concatenates_S1024x1x1_S1024x1x1_S1024x1x2_d2 : Shape.Concatenates [S1024x1x1, S1024x1x1] S1024x1x2 2
  shapeCasts_S1024x1x2_S1024x2 : S1024x1x2.ShapeCasts S1024x2
  inb_S1024x2048_S1024x2_0_2 : ∀ a, (![0, 2] : Fin 2 → Nat) a + S1024x2.size a ≤ S1024x2048.size a
  h_S1024x2 : 0 < S1024x2.numel
  slices_S1024x1024_o0_2_S1024x2 : S1024x1024.Slices ![0, 2] S1024x2
  shapeCasts_S1024x2_S1024x2x1 : S1024x2.ShapeCasts S1024x2x1
  concatenates_S1024x2x1_S1024x2x1_S1024x2x2_d2 : Shape.Concatenates [S1024x2x1, S1024x2x1] S1024x2x2 2
  shapeCasts_S1024x2x2_S1024x4 : S1024x2x2.ShapeCasts S1024x4
  inb_S1024x2048_S1024x4_0_4 : ∀ a, (![0, 4] : Fin 2 → Nat) a + S1024x4.size a ≤ S1024x2048.size a
  h_S1024x4 : 0 < S1024x4.numel
  slices_S1024x1024_o0_4_S1024x4 : S1024x1024.Slices ![0, 4] S1024x4
  shapeCasts_S1024x4_S1024x4x1 : S1024x4.ShapeCasts S1024x4x1
  concatenates_S1024x4x1_S1024x4x1_S1024x4x2_d2 : Shape.Concatenates [S1024x4x1, S1024x4x1] S1024x4x2 2
  shapeCasts_S1024x4x2_S1024x8 : S1024x4x2.ShapeCasts S1024x8
  inb_S1024x2048_S1024x8_0_8 : ∀ a, (![0, 8] : Fin 2 → Nat) a + S1024x8.size a ≤ S1024x2048.size a
  h_S1024x8 : 0 < S1024x8.numel
  slices_S1024x1024_o0_8_S1024x8 : S1024x1024.Slices ![0, 8] S1024x8
  shapeCasts_S1024x8_S1024x8x1 : S1024x8.ShapeCasts S1024x8x1
  concatenates_S1024x8x1_S1024x8x1_S1024x8x2_d2 : Shape.Concatenates [S1024x8x1, S1024x8x1] S1024x8x2 2
  shapeCasts_S1024x8x2_S1024x16 : S1024x8x2.ShapeCasts S1024x16
  inb_S1024x2048_S1024x16_0_16 : ∀ a, (![0, 16] : Fin 2 → Nat) a + S1024x16.size a ≤ S1024x2048.size a
  h_S1024x16 : 0 < S1024x16.numel
  slices_S1024x1024_o0_16_S1024x16 : S1024x1024.Slices ![0, 16] S1024x16
  shapeCasts_S1024x16_S1024x16x1 : S1024x16.ShapeCasts S1024x16x1
  concatenates_S1024x16x1_S1024x16x1_S1024x16x2_d2 : Shape.Concatenates [S1024x16x1, S1024x16x1] S1024x16x2 2
  shapeCasts_S1024x16x2_S1024x32 : S1024x16x2.ShapeCasts S1024x32
  inb_S1024x2048_S1024x32_0_32 : ∀ a, (![0, 32] : Fin 2 → Nat) a + S1024x32.size a ≤ S1024x2048.size a
  h_S1024x32 : 0 < S1024x32.numel
  slices_S1024x1024_o0_32_S1024x32 : S1024x1024.Slices ![0, 32] S1024x32
  shapeCasts_S1024x32_S1024x32x1 : S1024x32.ShapeCasts S1024x32x1
  concatenates_S1024x32x1_S1024x32x1_S1024x32x2_d2 : Shape.Concatenates [S1024x32x1, S1024x32x1] S1024x32x2 2
  shapeCasts_S1024x32x2_S1024x64 : S1024x32x2.ShapeCasts S1024x64
  inb_S1024x2048_S1024x64_0_64 : ∀ a, (![0, 64] : Fin 2 → Nat) a + S1024x64.size a ≤ S1024x2048.size a
  h_S1024x64 : 0 < S1024x64.numel
  slices_S1024x1024_o0_64_S1024x64 : S1024x1024.Slices ![0, 64] S1024x64
  shapeCasts_S1024x64_S1024x64x1 : S1024x64.ShapeCasts S1024x64x1
  concatenates_S1024x64x1_S1024x64x1_S1024x64x2_d2 : Shape.Concatenates [S1024x64x1, S1024x64x1] S1024x64x2 2
  shapeCasts_S1024x64x2_S1024x128 : S1024x64x2.ShapeCasts S1024x128
  inb_S1024x2048_S1024x128_0_128 : ∀ a, (![0, 128] : Fin 2 → Nat) a + S1024x128.size a ≤ S1024x2048.size a
  h_S1024x128 : 0 < S1024x128.numel
  slices_S1024x1024_o0_128_S1024x128 : S1024x1024.Slices ![0, 128] S1024x128
  shapeCasts_S1024x128_S1024x128x1 : S1024x128.ShapeCasts S1024x128x1
  concatenates_S1024x128x1_S1024x128x1_S1024x128x2_d2 : Shape.Concatenates [S1024x128x1, S1024x128x1] S1024x128x2 2
  shapeCasts_S1024x128x2_S1024x256 : S1024x128x2.ShapeCasts S1024x256
  inb_S1024x2048_S1024x256_0_256 : ∀ a, (![0, 256] : Fin 2 → Nat) a + S1024x256.size a ≤ S1024x2048.size a
  h_S1024x256 : 0 < S1024x256.numel
  slices_S1024x1024_o0_256_S1024x256 : S1024x1024.Slices ![0, 256] S1024x256
  shapeCasts_S1024x256_S1024x256x1 : S1024x256.ShapeCasts S1024x256x1
  concatenates_S1024x256x1_S1024x256x1_S1024x256x2_d2 : Shape.Concatenates [S1024x256x1, S1024x256x1] S1024x256x2 2
  shapeCasts_S1024x256x2_S1024x512 : S1024x256x2.ShapeCasts S1024x512
  inb_S1024x2048_S1024x512_0_512 : ∀ a, (![0, 512] : Fin 2 → Nat) a + S1024x512.size a ≤ S1024x2048.size a
  h_S1024x512 : 0 < S1024x512.numel
  slices_S1024x1024_o0_512_S1024x512 : S1024x1024.Slices ![0, 512] S1024x512
  shapeCasts_S1024x512_S1024x512x1 : S1024x512.ShapeCasts S1024x512x1
  concatenates_S1024x512x1_S1024x512x1_S1024x512x2_d2 : Shape.Concatenates [S1024x512x1, S1024x512x1] S1024x512x2 2
  shapeCasts_S1024x512x2_S1024x1024 : S1024x512x2.ShapeCasts S1024x1024
  inb_S1024x2048_S1024x1024_0_1024 : ∀ a, (![0, 1024] : Fin 2 → Nat) a + S1024x1024.size a ≤ S1024x2048.size a
  h_S1024x1024 : 0 < S1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S65536x1.size a
  hwx0_0 : ∀ i : grid0.Coords, EltTy.bits .f32 = 32 ∨ (Rect.block (s := S65536x1) S1024x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S65536x2048.size a
  hwx0_3 : ∀ i : grid0.Coords, EltTy.bits .f32 = 32 ∨ (Rect.block (s := S65536x2048) S1024x2048.size (cc0_transform_3 i) (hinb0_3 i)).WholeWords (EltTy.packing .f32)

variable [Facts₀]

abbrev win0_0 : Pipeline.Window sig grid0 :=
  Pipeline.Window.ofSpec (Memref.whole main_arg0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1 : Shape := ⟨2, ![65536, 1]⟩
abbrev S1024x1x1 : Shape := ⟨3, ![1024, 1, 1]⟩
abbrev S1024x1 : Shape := ⟨2, ![1024, 1]⟩
abbrev S65536x1024x1 : Shape := ⟨3, ![65536, 1024, 1]⟩
abbrev S1x1024x1 : Shape := ⟨3, ![1, 1024, 1]⟩
abbrev S_ : Shape := ⟨0, ![]⟩
abbrev S65536x1024x2 : Shape := ⟨3, ![65536, 1024, 2]⟩
abbrev S65536x2 : Shape := ⟨2, ![65536, 2]⟩
abbrev S65536x1x1 : Shape := ⟨3, ![65536, 1, 1]⟩
abbrev S65536x1x2 : Shape := ⟨3, ![65536, 1, 2]⟩
abbrev S65536x4 : Shape := ⟨2, ![65536, 4]⟩
abbrev S65536x2x1 : Shape := ⟨3, ![65536, 2, 1]⟩
abbrev S65536x2x2 : Shape := ⟨3, ![65536, 2, 2]⟩
abbrev S65536x8 : Shape := ⟨2, ![65536, 8]⟩
abbrev S65536x4x1 : Shape := ⟨3, ![65536, 4, 1]⟩
abbrev S65536x4x2 : Shape := ⟨3, ![65536, 4, 2]⟩
abbrev S65536x16 : Shape := ⟨2, ![65536, 16]⟩
abbrev S65536x8x1 : Shape := ⟨3, ![65536, 8, 1]⟩
abbrev S65536x8x2 : Shape := ⟨3, ![65536, 8, 2]⟩
abbrev S65536x32 : Shape := ⟨2, ![65536, 32]⟩
abbrev S65536x16x1 : Shape := ⟨3, ![65536, 16, 1]⟩
abbrev S65536x16x2 : Shape := ⟨3, ![65536, 16, 2]⟩
abbrev S65536x64 : Shape := ⟨2, ![65536, 64]⟩
abbrev S65536x32x1 : Shape := ⟨3, ![65536, 32, 1]⟩
abbrev S65536x32x2 : Shape := ⟨3, ![65536, 32, 2]⟩
abbrev S65536x128 : Shape := ⟨2, ![65536, 128]⟩
abbrev S65536x64x1 : Shape := ⟨3, ![65536, 64, 1]⟩
abbrev S65536x64x2 : Shape := ⟨3, ![65536, 64, 2]⟩
abbrev S65536x256 : Shape := ⟨2, ![65536, 256]⟩
abbrev S65536x128x1 : Shape := ⟨3, ![65536, 128, 1]⟩
abbrev S65536x128x2 : Shape := ⟨3, ![65536, 128, 2]⟩
abbrev S65536x512 : Shape := ⟨2, ![65536, 512]⟩
abbrev S65536x256x1 : Shape := ⟨3, ![65536, 256, 1]⟩
abbrev S65536x256x2 : Shape := ⟨3, ![65536, 256, 2]⟩
abbrev S65536x1024 : Shape := ⟨2, ![65536, 1024]⟩
abbrev S65536x512x1 : Shape := ⟨3, ![65536, 512, 1]⟩
abbrev S65536x512x2 : Shape := ⟨3, ![65536, 512, 2]⟩
abbrev S65536x2048 : Shape := ⟨2, ![65536, 2048]⟩
abbrev S1 : Shape := ⟨1, ![1]⟩
abbrev S65536 : Shape := ⟨1, ![65536]⟩

abbrev nBuf : Space → Nat
  | .hbm => 96
  | .vmem => 0
  | .smem => 0
  | _ => 0

abbrev bufTy : (tb : Table) → Fin (tcTables nBuf tb) → BufTy
  | .hbm, ⟨0, _⟩ => ⟨S65536x1, .f32⟩
  | .hbm, ⟨1, _⟩ => ⟨S1024x1x1, .f32⟩
  | .hbm, ⟨2, _⟩ => ⟨S1024x1, .f32⟩
  | .hbm, ⟨3, _⟩ => ⟨S65536x1024x1, .f32⟩
  | .hbm, ⟨4, _⟩ => ⟨S1x1024x1, .f32⟩
  | .hbm, ⟨5, _⟩ => ⟨S65536x1024x1, .f32⟩
  | .hbm, ⟨6, _⟩ => ⟨S65536x1024x1, .f32⟩
  | .hbm, ⟨7, _⟩ => ⟨S65536x1024x1, .f32⟩
  | .hbm, ⟨8, _⟩ => ⟨S65536x1024x1, .f32⟩
  | .hbm, ⟨9, _⟩ => ⟨S_, .f32⟩
  | .hbm, ⟨10, _⟩ => ⟨S65536x1024x1, .f32⟩
  | .hbm, ⟨11, _⟩ => ⟨S65536x1024x1, .f32⟩
  | .hbm, ⟨12, _⟩ => ⟨S_, .f32⟩
  | .hbm, ⟨13, _⟩ => ⟨S65536x1024x1, .f32⟩
  | .hbm, ⟨14, _⟩ => ⟨S65536x1024x1, .f32⟩
  | .hbm, ⟨15, _⟩ => ⟨S_, .f32⟩
  | .hbm, ⟨16, _⟩ => ⟨S65536x1024x1, .f32⟩
  | .hbm, ⟨17, _⟩ => ⟨S65536x1024x1, .f32⟩
  | .hbm, ⟨18, _⟩ => ⟨S65536x1024x2, .f32⟩
  | .hbm, ⟨19, _⟩ => ⟨S_, .f32⟩
  | .hbm, ⟨20, _⟩ => ⟨S65536x2, .f32⟩
  | .hbm, ⟨21, _⟩ => ⟨S65536x1, .f32⟩
  | .hbm, ⟨22, _⟩ => ⟨S65536x1x1, .f32⟩
  | .hbm, ⟨23, _⟩ => ⟨S65536x1x2, .f32⟩
  | .hbm, ⟨24, _⟩ => ⟨S65536x1x2, .f32⟩
  | .hbm, ⟨25, _⟩ => ⟨S65536x1x2, .f32⟩
  | .hbm, ⟨26, _⟩ => ⟨S65536x2, .f32⟩
  | .hbm, ⟨27, _⟩ => ⟨S65536x4, .f32⟩
  | .hbm, ⟨28, _⟩ => ⟨S65536x2, .f32⟩
  | .hbm, ⟨29, _⟩ => ⟨S65536x2x1, .f32⟩
  | .hbm, ⟨30, _⟩ => ⟨S65536x2x2, .f32⟩
  | .hbm, ⟨31, _⟩ => ⟨S65536x2x2, .f32⟩
  | .hbm, ⟨32, _⟩ => ⟨S65536x2x2, .f32⟩
  | .hbm, ⟨33, _⟩ => ⟨S65536x4, .f32⟩
  | .hbm, ⟨34, _⟩ => ⟨S65536x8, .f32⟩
  | .hbm, ⟨35, _⟩ => ⟨S65536x4, .f32⟩
  | .hbm, ⟨36, _⟩ => ⟨S65536x4x1, .f32⟩
  | .hbm, ⟨37, _⟩ => ⟨S65536x4x2, .f32⟩
  | .hbm, ⟨38, _⟩ => ⟨S65536x4x2, .f32⟩
  | .hbm, ⟨39, _⟩ => ⟨S65536x4x2, .f32⟩
  | .hbm, ⟨40, _⟩ => ⟨S65536x8, .f32⟩
  | .hbm, ⟨41, _⟩ => ⟨S65536x16, .f32⟩
  | .hbm, ⟨42, _⟩ => ⟨S65536x8, .f32⟩
  | .hbm, ⟨43, _⟩ => ⟨S65536x8x1, .f32⟩
  | .hbm, ⟨44, _⟩ => ⟨S65536x8x2, .f32⟩
  | .hbm, ⟨45, _⟩ => ⟨S65536x8x2, .f32⟩
  | .hbm, ⟨46, _⟩ => ⟨S65536x8x2, .f32⟩
  | .hbm, ⟨47, _⟩ => ⟨S65536x16, .f32⟩
  | .hbm, ⟨48, _⟩ => ⟨S65536x32, .f32⟩
  | .hbm, ⟨49, _⟩ => ⟨S65536x16, .f32⟩
  | .hbm, ⟨50, _⟩ => ⟨S65536x16x1, .f32⟩
  | .hbm, ⟨51, _⟩ => ⟨S65536x16x2, .f32⟩
  | .hbm, ⟨52, _⟩ => ⟨S65536x16x2, .f32⟩
  | .hbm, ⟨53, _⟩ => ⟨S65536x16x2, .f32⟩
  | .hbm, ⟨54, _⟩ => ⟨S65536x32, .f32⟩
  | .hbm, ⟨55, _⟩ => ⟨S65536x64, .f32⟩
  | .hbm, ⟨56, _⟩ => ⟨S65536x32, .f32⟩
  | .hbm, ⟨57, _⟩ => ⟨S65536x32x1, .f32⟩
  | .hbm, ⟨58, _⟩ => ⟨S65536x32x2, .f32⟩
  | .hbm, ⟨59, _⟩ => ⟨S65536x32x2, .f32⟩
  | .hbm, ⟨60, _⟩ => ⟨S65536x32x2, .f32⟩
  | .hbm, ⟨61, _⟩ => ⟨S65536x64, .f32⟩
  | .hbm, ⟨62, _⟩ => ⟨S65536x128, .f32⟩
  | .hbm, ⟨63, _⟩ => ⟨S65536x64, .f32⟩
  | .hbm, ⟨64, _⟩ => ⟨S65536x64x1, .f32⟩
  | .hbm, ⟨65, _⟩ => ⟨S65536x64x2, .f32⟩
  | .hbm, ⟨66, _⟩ => ⟨S65536x64x2, .f32⟩
  | .hbm, ⟨67, _⟩ => ⟨S65536x64x2, .f32⟩
  | .hbm, ⟨68, _⟩ => ⟨S65536x128, .f32⟩
  | .hbm, ⟨69, _⟩ => ⟨S65536x256, .f32⟩
  | .hbm, ⟨70, _⟩ => ⟨S65536x128, .f32⟩
  | .hbm, ⟨71, _⟩ => ⟨S65536x128x1, .f32⟩
  | .hbm, ⟨72, _⟩ => ⟨S65536x128x2, .f32⟩
  | .hbm, ⟨73, _⟩ => ⟨S65536x128x2, .f32⟩
  | .hbm, ⟨74, _⟩ => ⟨S65536x128x2, .f32⟩
  | .hbm, ⟨75, _⟩ => ⟨S65536x256, .f32⟩
  | .hbm, ⟨76, _⟩ => ⟨S65536x512, .f32⟩
  | .hbm, ⟨77, _⟩ => ⟨S65536x256, .f32⟩
  | .hbm, ⟨78, _⟩ => ⟨S65536x256x1, .f32⟩
  | .hbm, ⟨79, _⟩ => ⟨S65536x256x2, .f32⟩
  | .hbm, ⟨80, _⟩ => ⟨S65536x256x2, .f32⟩
  | .hbm, ⟨81, _⟩ => ⟨S65536x256x2, .f32⟩
  | .hbm, ⟨82, _⟩ => ⟨S65536x512, .f32⟩
  | .hbm, ⟨83, _⟩ => ⟨S65536x1024, .f32⟩
  | .hbm, ⟨84, _⟩ => ⟨S65536x512, .f32⟩
  | .hbm, ⟨85, _⟩ => ⟨S65536x512x1, .f32⟩
  | .hbm, ⟨86, _⟩ => ⟨S65536x512x2, .f32⟩
  | .hbm, ⟨87, _⟩ => ⟨S65536x512x2, .f32⟩
  | .hbm, ⟨88, _⟩ => ⟨S65536x512x2, .f32⟩
  | .hbm, ⟨89, _⟩ => ⟨S65536x1024, .f32⟩
  | .hbm, ⟨90, _⟩ => ⟨S65536x2048, .f32⟩
  | .hbm, ⟨91, _⟩ => ⟨S_, .i32⟩
  | .hbm, ⟨92, _⟩ => ⟨S1, .i32⟩
  | .hbm, ⟨93, _⟩ => ⟨S_, .f32⟩
  | .hbm, ⟨94, _⟩ => ⟨S65536, .f32⟩
  | .hbm, ⟨95, _⟩ => ⟨S65536x2048, .f32⟩
  | _, _ => ⟨S65536x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_c : Ref sig .tc := ⟨.hbm, 91, rfl⟩
abbrev main_v84 : Ref sig .tc := ⟨.hbm, 92, rfl⟩
abbrev main_cst_3 : Ref sig .tc := ⟨.hbm, 93, rfl⟩
abbrev main_v85 : Ref sig .tc := ⟨.hbm, 94, rfl⟩
abbrev main_v86 : Ref sig .tc := ⟨.hbm, 95, rfl⟩

abbrev nD : Nat := 1
abbrev τ : Topo := Topo.v7x

variable {F : FTy → Type} [FloatOps F]

class Facts₀ : Prop where
  bcast_S1024x1_S1x1024x1_1_2 : S1024x1.BroadcastsInDim S1x1024x1 (![1, 2] : Fin 2 → Fin S1x1024x1.rank)
  bcast_S1x1024x1_S65536x1024x1_0_1_2 : S1x1024x1.BroadcastsInDim S65536x1024x1 (![0, 1, 2] : Fin 3 → Fin S65536x1024x1.rank)
  bcast_S_S65536x1024x1 : S_.BroadcastsInDim S65536x1024x1 (![] : Fin 0 → Fin S65536x1024x1.rank)
  concatenates_S65536x1024x1_S65536x1024x1_S65536x1024x2_d2 : Shape.Concatenates [S65536x1024x1, S65536x1024x1] S65536x1024x2 2
  bcast_S_S65536x2 : S_.BroadcastsInDim S65536x2 (![] : Fin 0 → Fin S65536x2.rank)
  slices_S65536x2_S65536x1_0_1 : S65536x2.Slices ![0, 1] S65536x1
  bcast_S65536x1_S65536x1x1_0_1 : S65536x1.BroadcastsInDim S65536x1x1 (![0, 1] : Fin 2 → Fin S65536x1x1.rank)
  slices_S65536x1024x2_S65536x1x2_0_1_0 : S65536x1024x2.Slices ![0, 1, 0] S65536x1x2
  bcast_S65536x1x1_S65536x1x2_0_1_2 : S65536x1x1.BroadcastsInDim S65536x1x2 (![0, 1, 2] : Fin 3 → Fin S65536x1x2.rank)
  shapeCasts_S65536x1x2_S65536x2 : S65536x1x2.ShapeCasts S65536x2
  concatenates_S65536x2_S65536x2_S65536x4_d1 : Shape.Concatenates [S65536x2, S65536x2] S65536x4 1
  slices_S65536x4_S65536x2_0_2 : S65536x4.Slices ![0, 2] S65536x2
  bcast_S65536x2_S65536x2x1_0_1 : S65536x2.BroadcastsInDim S65536x2x1 (![0, 1] : Fin 2 → Fin S65536x2x1.rank)
  slices_S65536x1024x2_S65536x2x2_0_2_0 : S65536x1024x2.Slices ![0, 2, 0] S65536x2x2
  bcast_S65536x2x1_S65536x2x2_0_1_2 : S65536x2x1.BroadcastsInDim S65536x2x2 (![0, 1, 2] : Fin 3 → Fin S65536x2x2.rank)
  shapeCasts_S65536x2x2_S65536x4 : S65536x2x2.ShapeCasts S65536x4
  concatenates_S65536x4_S65536x4_S65536x8_d1 : Shape.Concatenates [S65536x4, S65536x4] S65536x8 1
  slices_S65536x8_S65536x4_0_4 : S65536x8.Slices ![0, 4] S65536x4
  bcast_S65536x4_S65536x4x1_0_1 : S65536x4.BroadcastsInDim S65536x4x1 (![0, 1] : Fin 2 → Fin S65536x4x1.rank)
  slices_S65536x1024x2_S65536x4x2_0_4_0 : S65536x1024x2.Slices ![0, 4, 0] S65536x4x2
  bcast_S65536x4x1_S65536x4x2_0_1_2 : S65536x4x1.BroadcastsInDim S65536x4x2 (![0, 1, 2] : Fin 3 → Fin S65536x4x2.rank)
  shapeCasts_S65536x4x2_S65536x8 : S65536x4x2.ShapeCasts S65536x8
  concatenates_S65536x8_S65536x8_S65536x16_d1 : Shape.Concatenates [S65536x8, S65536x8] S65536x16 1
  slices_S65536x16_S65536x8_0_8 : S65536x16.Slices ![0, 8] S65536x8
  bcast_S65536x8_S65536x8x1_0_1 : S65536x8.BroadcastsInDim S65536x8x1 (![0, 1] : Fin 2 → Fin S65536x8x1.rank)
  slices_S65536x1024x2_S65536x8x2_0_8_0 : S65536x1024x2.Slices ![0, 8, 0] S65536x8x2
  bcast_S65536x8x1_S65536x8x2_0_1_2 : S65536x8x1.BroadcastsInDim S65536x8x2 (![0, 1, 2] : Fin 3 → Fin S65536x8x2.rank)
  shapeCasts_S65536x8x2_S65536x16 : S65536x8x2.ShapeCasts S65536x16
  concatenates_S65536x16_S65536x16_S65536x32_d1 : Shape.Concatenates [S65536x16, S65536x16] S65536x32 1
  slices_S65536x32_S65536x16_0_16 : S65536x32.Slices ![0, 16] S65536x16
  bcast_S65536x16_S65536x16x1_0_1 : S65536x16.BroadcastsInDim S65536x16x1 (![0, 1] : Fin 2 → Fin S65536x16x1.rank)
  slices_S65536x1024x2_S65536x16x2_0_16_0 : S65536x1024x2.Slices ![0, 16, 0] S65536x16x2
  bcast_S65536x16x1_S65536x16x2_0_1_2 : S65536x16x1.BroadcastsInDim S65536x16x2 (![0, 1, 2] : Fin 3 → Fin S65536x16x2.rank)
  shapeCasts_S65536x16x2_S65536x32 : S65536x16x2.ShapeCasts S65536x32
  concatenates_S65536x32_S65536x32_S65536x64_d1 : Shape.Concatenates [S65536x32, S65536x32] S65536x64 1
  slices_S65536x64_S65536x32_0_32 : S65536x64.Slices ![0, 32] S65536x32
  bcast_S65536x32_S65536x32x1_0_1 : S65536x32.BroadcastsInDim S65536x32x1 (![0, 1] : Fin 2 → Fin S65536x32x1.rank)
  slices_S65536x1024x2_S65536x32x2_0_32_0 : S65536x1024x2.Slices ![0, 32, 0] S65536x32x2
  bcast_S65536x32x1_S65536x32x2_0_1_2 : S65536x32x1.BroadcastsInDim S65536x32x2 (![0, 1, 2] : Fin 3 → Fin S65536x32x2.rank)
  shapeCasts_S65536x32x2_S65536x64 : S65536x32x2.ShapeCasts S65536x64
  concatenates_S65536x64_S65536x64_S65536x128_d1 : Shape.Concatenates [S65536x64, S65536x64] S65536x128 1
  slices_S65536x128_S65536x64_0_64 : S65536x128.Slices ![0, 64] S65536x64
  bcast_S65536x64_S65536x64x1_0_1 : S65536x64.BroadcastsInDim S65536x64x1 (![0, 1] : Fin 2 → Fin S65536x64x1.rank)
  slices_S65536x1024x2_S65536x64x2_0_64_0 : S65536x1024x2.Slices ![0, 64, 0] S65536x64x2
  bcast_S65536x64x1_S65536x64x2_0_1_2 : S65536x64x1.BroadcastsInDim S65536x64x2 (![0, 1, 2] : Fin 3 → Fin S65536x64x2.rank)
  shapeCasts_S65536x64x2_S65536x128 : S65536x64x2.ShapeCasts S65536x128
  concatenates_S65536x128_S65536x128_S65536x256_d1 : Shape.Concatenates [S65536x128, S65536x128] S65536x256 1
  slices_S65536x256_S65536x128_0_128 : S65536x256.Slices ![0, 128] S65536x128
  bcast_S65536x128_S65536x128x1_0_1 : S65536x128.BroadcastsInDim S65536x128x1 (![0, 1] : Fin 2 → Fin S65536x128x1.rank)
  slices_S65536x1024x2_S65536x128x2_0_128_0 : S65536x1024x2.Slices ![0, 128, 0] S65536x128x2
  bcast_S65536x128x1_S65536x128x2_0_1_2 : S65536x128x1.BroadcastsInDim S65536x128x2 (![0, 1, 2] : Fin 3 → Fin S65536x128x2.rank)
  shapeCasts_S65536x128x2_S65536x256 : S65536x128x2.ShapeCasts S65536x256
  concatenates_S65536x256_S65536x256_S65536x512_d1 : Shape.Concatenates [S65536x256, S65536x256] S65536x512 1
  slices_S65536x512_S65536x256_0_256 : S65536x512.Slices ![0, 256] S65536x256
  bcast_S65536x256_S65536x256x1_0_1 : S65536x256.BroadcastsInDim S65536x256x1 (![0, 1] : Fin 2 → Fin S65536x256x1.rank)
  slices_S65536x1024x2_S65536x256x2_0_256_0 : S65536x1024x2.Slices ![0, 256, 0] S65536x256x2
  bcast_S65536x256x1_S65536x256x2_0_1_2 : S65536x256x1.BroadcastsInDim S65536x256x2 (![0, 1, 2] : Fin 3 → Fin S65536x256x2.rank)
  shapeCasts_S65536x256x2_S65536x512 : S65536x256x2.ShapeCasts S65536x512
  concatenates_S65536x512_S65536x512_S65536x1024_d1 : Shape.Concatenates [S65536x512, S65536x512] S65536x1024 1
  slices_S65536x1024_S65536x512_0_512 : S65536x1024.Slices ![0, 512] S65536x512
  bcast_S65536x512_S65536x512x1_0_1 : S65536x512.BroadcastsInDim S65536x512x1 (![0, 1] : Fin 2 → Fin S65536x512x1.rank)
  slices_S65536x1024x2_S65536x512x2_0_512_0 : S65536x1024x2.Slices ![0, 512, 0] S65536x512x2
  bcast_S65536x512x1_S65536x512x2_0_1_2 : S65536x512x1.BroadcastsInDim S65536x512x2 (![0, 1, 2] : Fin 3 → Fin S65536x512x2.rank)
  shapeCasts_S65536x512x2_S65536x1024 : S65536x512x2.ShapeCasts S65536x1024
  concatenates_S65536x1024_S65536x1024_S65536x2048_d1 : Shape.Concatenates [S65536x1024, S65536x1024] S65536x2048 1
  bcast_S_S1 : S_.BroadcastsInDim S1 (![] : Fin 0 → Fin S1.rank)
  bcast_S_S65536 : S_.BroadcastsInDim S65536 (![] : Fin 0 → Fin S65536.rank)
  dot_S65536x1_S1024x1x1_S65536x1024x1_1_2_0_01_n_n_wf : DotDims.WF S65536x1 S1024x1x1 S65536x1024x1 [1] [2] [0] [0, 1] [] []
  scatter_S65536x2048_S1_S65536_0_1_1_0_wf : ScatterDims.WF S65536x2048 S1 S65536 [0] [1] [1] 0

variable [Facts₀]

def dot_S65536x1_S1024x1x1_S65536x1024x1_1_2_0_01_n_n : DotDims S65536x1 S1024x1x1 S65536x1024x1 where
  lhsContracting := [1]
  rhsContracting := [2]
  lhsNonContracting := [0]
  rhsNonContracting := [0, 1]
  lhsBatch := []
  rhsBatch := []
  wf := dot_S65536x1_S1024x1x1_S65536x1024x1_1_2_0_01_n_n_wf
def scatter_S65536x2048_S1_S65536_0_1_1_0 : ScatterDims S65536x2048 S1 S65536 where
  updateWindowDims := [0]
  insertedWindowDims := [1]
  scatterDimsToOperandDims := [1]
  indexVectorDim := 0
  wf := scatter_S65536x2048_S1_S65536_0_1_1_0_wf

class Facts : Prop extends Facts₀ where

variable [Facts]
-- ==== Proof.KernelCover.lean ====
/-
  The twelve stores of the body cover the output block [1024, 2048]: they write the column bands
  {0}, {1}, [2, 4), [4, 8), …, [1024, 2048), and every column index lies in exactly one of them.
-/
import proofs.«170250_j83193516523595_1_alg».proof.Proof.Gen.Kernel.Frame.RunA

set_option maxRecDepth 16384

noncomputable section

namespace Cert.Kernel.Cover

open Cert.Kernel Cert.Kernel.Gen
open Idealize.ShloMosaic Idealize.ShloMosaic.TcCoe Idealize.ShloMosaic.Tactic

variable {F : FTy → Type} [FloatOps F]

/-- A property of the head of a list holds of some member. -/
theorem ex_head {α : Type} {p : α → Prop} {a : α} {l : List α} (h : p a) : ∃ x ∈ a :: l, p x :=
  ⟨a, List.Mem.head _, h⟩

/-- A property of some member of the tail holds of some member. -/
theorem ex_tail {α : Type} {p : α → Prop} {a : α} {l : List α} (h : ∃ x ∈ l, p x) : ∃ x ∈ a :: l, p x :=
  let ⟨x, hx, hp⟩ := h; ⟨x, List.Mem.tail _ hx, hp⟩

/-- An index of the block lies in the band of all rows and the columns [c, c + w) when its column does. -/
theorem mem_band (y : S1024x2048.Idx) (c w : Nat) (inb : ∀ a, (![0, c] : Fin 2 → Nat) a + (![1024, w] : Fin 2 → Nat) a ≤ S1024x2048.size a)
    (hlo : c ≤ (y 1).val) (hhi : (y 1).val < c + w) :
    y ∈ (Rect.unit (s := S1024x2048) ![0, c] ![1024, w] inb).set := by
  have h0 : (y 0).val < 1024 := (y 0).isLt
  refine Rect.mem_set_unit.2 fun a => ?_
  match a with
  | ⟨0, _⟩ => exact ⟨Nat.zero_le _, by show (y 0).val < 0 + 1024; omega⟩
  | ⟨1, _⟩ => exact ⟨hlo, hhi⟩

/-- Every index of the output block lies in the rectangle of one of the body's stores. -/
theorem cover (c : Dev nD) (i : grid0.Coords) (arg1 : Memref sig .tc .vmem S1024x1 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .f32) (harg4 : arg4.IsWhole)
    (x0 : Vec F S1024x1 .f32) (x1 : Vec F S1x1024 .f32) (x2 : Vec F S1x1024 .f32) (y : S1024x2048.Idx) :
    ∃ pc ∈ (kernelRun0_A c i arg1 harg1 arg2 harg2 arg3 harg3 arg4 harg4 x0 x1 x2).1, y ∈ pc.1.set := by
  have h1 : (y 1).val < 2048 := (y 1).isLt
  unfold kernelRun0_A
  dsimp only
  sl_unfold_words
  by_cases c10 : 1024 ≤ (y 1).val
  · refine ex_head ?_; dsimp only; exact mem_band y 1024 1024 _ c10 (by omega)
  refine ex_tail ?_
  by_cases c9 : 512 ≤ (y 1).val
  · refine ex_head ?_; dsimp only; exact mem_band y 512 512 _ c9 (by omega)
  refine ex_tail ?_
  by_cases c8 : 256 ≤ (y 1).val
  · refine ex_head ?_; dsimp only; exact mem_band y 256 256 _ c8 (by omega)
  refine ex_tail ?_
  by_cases c7 : 128 ≤ (y 1).val
  · refine ex_head ?_; dsimp only; exact mem_band y 128 128 _ c7 (by omega)
  refine ex_tail ?_
  by_cases c6 : 64 ≤ (y 1).val
  · refine ex_head ?_; dsimp only; exact mem_band y 64 64 _ c6 (by omega)
  refine ex_tail ?_
  by_cases c5 : 32 ≤ (y 1).val
  · refine ex_head ?_; dsimp only; exact mem_band y 32 32 _ c5 (by omega)
  refine ex_tail ?_
  by_cases c4 : 16 ≤ (y 1).val
  · refine ex_head ?_; dsimp only; exact mem_band y 16 16 _ c4 (by omega)
  refine ex_tail ?_
  by_cases c3 : 8 ≤ (y 1).val
  · refine ex_head ?_; dsimp only; exact mem_band y 8 8 _ c3 (by omega)
  refine ex_tail ?_
  by_cases c2 : 4 ≤ (y 1).val
  · refine ex_head ?_; dsimp only; exact mem_band y 4 4 _ c2 (by omega)
  refine ex_tail ?_
  by_cases c1 : 2 ≤ (y 1).val
  · refine ex_head ?_; dsimp only; exact mem_band y 2 2 _ c1 (by omega)
  refine ex_tail ?_
  by_cases c0 : 1 ≤ (y 1).val
  · refine ex_head ?_; dsimp only; exact mem_band y 1 1 _ c0 (by omega)
  refine ex_tail ?_
  refine ex_head ?_; dsimp only; exact mem_band y 0 1 _ (Nat.zero_le _) (by omega)

end Cert.Kernel.Cover

end
-- ==== Proof.KernelIdealCover.lean ====
/-
  The twelve stores of the body cover the output block [1024, 2048]: they write the column bands
  {0}, {1}, [2, 4), [4, 8), …, [1024, 2048), and every column index lies in exactly one of them.
-/
import proofs.«170250_j83193516523595_1_alg».proof.Proof.Gen.KernelIdeal.Frame.RunA

set_option maxRecDepth 16384

noncomputable section

namespace Cert.KernelIdeal.Cover

open Cert.KernelIdeal Cert.KernelIdeal.Gen
open Idealize.ShloMosaic Idealize.ShloMosaic.TcCoe Idealize.ShloMosaic.Tactic

variable {F : FTy → Type} [FloatOps F]

/-- A property of the head of a list holds of some member. -/
theorem ex_head {α : Type} {p : α → Prop} {a : α} {l : List α} (h : p a) : ∃ x ∈ a :: l, p x :=
  ⟨a, List.Mem.head _, h⟩

/-- A property of some member of the tail holds of some member. -/
theorem ex_tail {α : Type} {p : α → Prop} {a : α} {l : List α} (h : ∃ x ∈ l, p x) : ∃ x ∈ a :: l, p x :=
  let ⟨x, hx, hp⟩ := h; ⟨x, List.Mem.tail _ hx, hp⟩

/-- An index of the block lies in the band of all rows and the columns [c, c + w) when its column does. -/
theorem mem_band (y : S1024x2048.Idx) (c w : Nat) (inb : ∀ a, (![0, c] : Fin 2 → Nat) a + (![1024, w] : Fin 2 → Nat) a ≤ S1024x2048.size a)
    (hlo : c ≤ (y 1).val) (hhi : (y 1).val < c + w) :
    y ∈ (Rect.unit (s := S1024x2048) ![0, c] ![1024, w] inb).set := by
  have h0 : (y 0).val < 1024 := (y 0).isLt
  refine Rect.mem_set_unit.2 fun a => ?_
  match a with
  | ⟨0, _⟩ => exact ⟨Nat.zero_le _, by show (y 0).val < 0 + 1024; omega⟩
  | ⟨1, _⟩ => exact ⟨hlo, hhi⟩

/-- Every index of the output block lies in the rectangle of one of the body's stores. -/
theorem cover (c : Dev nD) (i : grid0.Coords) (arg1 : Memref sig .tc .vmem S1024x1 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .f32) (harg4 : arg4.IsWhole)
    (x0 : Vec F S1024x1 .f32) (x1 : Vec F S1x1024 .f32) (x2 : Vec F S1x1024 .f32) (y : S1024x2048.Idx) :
    ∃ pc ∈ (kernelRun0_A c i arg1 harg1 arg2 harg2 arg3 harg3 arg4 harg4 x0 x1 x2).1, y ∈ pc.1.set := by
  have h1 : (y 1).val < 2048 := (y 1).isLt
  unfold kernelRun0_A
  dsimp only
  sl_unfold_words
  by_cases c10 : 1024 ≤ (y 1).val
  · refine ex_head ?_; dsimp only; exact mem_band y 1024 1024 _ c10 (by omega)
  refine ex_tail ?_
  by_cases c9 : 512 ≤ (y 1).val
  · refine ex_head ?_; dsimp only; exact mem_band y 512 512 _ c9 (by omega)
  refine ex_tail ?_
  by_cases c8 : 256 ≤ (y 1).val
  · refine ex_head ?_; dsimp only; exact mem_band y 256 256 _ c8 (by omega)
  refine ex_tail ?_
  by_cases c7 : 128 ≤ (y 1).val
  · refine ex_head ?_; dsimp only; exact mem_band y 128 128 _ c7 (by omega)
  refine ex_tail ?_
  by_cases c6 : 64 ≤ (y 1).val
  · refine ex_head ?_; dsimp only; exact mem_band y 64 64 _ c6 (by omega)
  refine ex_tail ?_
  by_cases c5 : 32 ≤ (y 1).val
  · refine ex_head ?_; dsimp only; exact mem_band y 32 32 _ c5 (by omega)
  refine ex_tail ?_
  by_cases c4 : 16 ≤ (y 1).val
  · refine ex_head ?_; dsimp only; exact mem_band y 16 16 _ c4 (by omega)
  refine ex_tail ?_
  by_cases c3 : 8 ≤ (y 1).val
  · refine ex_head ?_; dsimp only; exact mem_band y 8 8 _ c3 (by omega)
  refine ex_tail ?_
  by_cases c2 : 4 ≤ (y 1).val
  · refine ex_head ?_; dsimp only; exact mem_band y 4 4 _ c2 (by omega)
  refine ex_tail ?_
  by_cases c1 : 2 ≤ (y 1).val
  · refine ex_head ?_; dsimp only; exact mem_band y 2 2 _ c1 (by omega)
  refine ex_tail ?_
  by_cases c0 : 1 ≤ (y 1).val
  · refine ex_head ?_; dsimp only; exact mem_band y 1 1 _ c0 (by omega)
  refine ex_tail ?_
  refine ex_head ?_; dsimp only; exact mem_band y 0 1 _ (Nat.zero_le _) (by omega)

end Cert.KernelIdeal.Cover

end
-- ==== Proof.Tree.lean ====
/-
  The soft decision tree that both programs compute, as a function of a node's index.

  Nodes are numbered as in a binary heap: node 1 is the root and node n has the children 2n (left) and 2n+1 (right).
  Every inner node n holds a decision p n in [0, 1]; the probability of arriving at a node is the product of the
  factors met on the way down from the root: p of the parent for a left child, 1 - p of the parent for a right child.
  Column k of the result holds that probability for node k (columns 0 and 1 hold 1).
-/
import Idealize.ShloMosaic.PureOps.Ideal
import Idealize.ShloMosaic.Lib.ValueIdx

noncomputable section

namespace Cert.Tree

open Idealize.ShloMosaic

/-- The factor on the edge into node k from its parent, whose decision is p: p into a left child (k even),
    1 - p into a right child (k odd). -/
def edge (p : EReal) (k : Nat) : EReal := if k % 2 = 0 then p else 1 - p

/-- The probability of arriving at node k when inner node n decides with p n: 1 at the root (and at the unused
    index 0), and at any other node the parent's probability times the factor of the edge. -/
def reach (p : Nat → EReal) : Nat → EReal
  | 0 => 1
  | 1 => 1
  | (n + 2) => reach p ((n + 2) / 2) * edge (p ((n + 2) / 2)) (n + 2)
decreasing_by omega

theorem reach_zero (p : Nat → EReal) : reach p 0 = 1 := by rw [reach]
theorem reach_one (p : Nat → EReal) : reach p 1 = 1 := by rw [reach]

/-- Below the root the probability of a node is its parent's times the edge's factor. -/
theorem reach_step (p : Nat → EReal) (k : Nat) (hk : 2 ≤ k) : reach p k = reach p (k / 2) * edge (p (k / 2)) k := by
  obtain ⟨n, rfl⟩ : ∃ n, k = n + 2 := ⟨k - 2, by omega⟩
  rw [reach]

/-- The children of node n, written from the parent: child 2n + s (s = 0 left, s = 1 right). -/
theorem reach_child (p : Nat → EReal) (n s : Nat) (hn : 1 ≤ n) (hs : s < 2) :
    reach p (2 * n + s) = reach p n * (if s = 0 then p n else 1 - p n) := by
  rw [reach_step p (2 * n + s) (by omega), show (2 * n + s) / 2 = n by omega, edge]
  congr 1
  rcases Nat.lt_succ_iff_lt_or_eq.mp hs with h | h
  · have h0 : s = 0 := by omega
    subst h0; simp
  · subst h; rw [if_neg (by omega), if_neg (by omega)]

/-- A node's decision for a sample: the logistic function of the sample's feature x times the node's weight plus the
    node's bias. -/
def decide (x : EReal) (w b : Nat → EReal) (n : Nat) : EReal := Ideal.logistic (x * w n + b n)

/-- The result for a sample with feature x, at column k. -/
def tree (x : EReal) (w b : Nat → EReal) (k : Nat) : EReal := reach (decide x w b) k

end Cert.Tree

end
-- ==== Proof.Level.lean ====
/-
  One level of the tree, as the kernel lays it out: the values of the level's nodes, each multiplied by its decision
  and by one minus its decision, the two products laid side by side (a last axis of extent 2) and flattened, so that
  the children of node j land at positions 2j and 2j + 1 of the next level.
-/
import Idealize.ShloMosaic.PureOps.Ideal
import Idealize.ShloMosaic.Lib.ValueIdx
import Idealize.ShloMosaic.Lib.ValueLayout
import Idealize.ShloMosaic.Lib.Pipeline.Value

noncomputable section

namespace Cert.Tree

open Idealize.ShloMosaic Idealize.ShloMosaic.ValueIdx

/-- A matrix seen with a trailing unit axis reads (r, j, 0) at (r, j). -/
theorem addLastUnit_apply {α : Type} {R m : Nat} (X : (⟨2, ![R, m]⟩ : Shape).Idx → α)
    (h : (⟨2, ![R, m]⟩ : Shape).ShapeCasts ⟨3, ![R, m, 1]⟩) (r : Fin R) (j : Fin m) (z : Fin 1) :
    shapeCast ⟨3, ![R, m, 1]⟩ X h (ix3 r j z) = X (ix2 r j) := by
  refine shapeCast_apply X h (ix3 r j z) (ix2 r j) ?_
  rw [Shape.rowMajor_val_two, Shape.rowMajor_val_three]
  show r.val * m + j.val = (r.val * m + j.val) * 1 + z.val
  have := z.isLt
  omega

/-- An array [R, m, 2] flattened to [R, 2m] reads (r, k / 2, k % 2) at (r, k). -/
theorem flattenPairs_apply {α : Type} {R m m2 : Nat} (hm2 : m2 = 2 * m) (X : (⟨3, ![R, m, 2]⟩ : Shape).Idx → α)
    (h : (⟨3, ![R, m, 2]⟩ : Shape).ShapeCasts ⟨2, ![R, m2]⟩) (r : Fin R) (k : Fin m2) (j : Fin m) (s : Fin 2)
    (hk : k.val = 2 * j.val + s.val) :
    shapeCast ⟨2, ![R, m2]⟩ X h (ix2 r k) = X (ix3 r j s) := by
  refine shapeCast_apply X h (ix2 r k) (ix3 r j s) ?_
  rw [Shape.rowMajor_val_two, Shape.rowMajor_val_three]
  show (r.val * m + j.val) * 2 + s.val = r.val * m2 + k.val
  have e : r.val * m2 = r.val * m * 2 := by rw [hm2]; ring
  omega

/-- Two arrays [R, m, 1] laid side by side along the last axis read the first at (r, j, 0) and the second at (r, j, 1). -/
theorem pairLast_apply {α : Type} {R m : Nat} (X Y : (⟨3, ![R, m, 1]⟩ : Shape).Idx → α)
    (h : Shape.Concatenates [(⟨3, ![R, m, 1]⟩ : Shape), ⟨3, ![R, m, 1]⟩] ⟨3, ![R, m, 2]⟩ 2)
    (r : Fin R) (j : Fin m) (s : Fin 2) :
    concatenate ⟨3, ![R, m, 2]⟩ 2 [⟨⟨3, ![R, m, 1]⟩, X⟩, ⟨⟨3, ![R, m, 1]⟩, Y⟩] h (ix3 r j s)
      = if s.val = 0 then X (ix3 r j 0) else Y (ix3 r j 0) := by
  by_cases hs : s.val = 0
  · rw [if_pos hs]
    refine concatenate_pair_apply_left 2 X Y h (ix3 r j s) rfl (ix3 r j 0) (fun b => ?_)
    match b with
    | ⟨0, _⟩ => rfl
    | ⟨1, _⟩ => rfl
    | ⟨2, _⟩ => exact hs.symm
  · rw [if_neg hs]
    have h1 : s.val = 1 := by have := s.isLt; omega
    refine concatenate_pair_apply_right 2 X Y h (ix3 r j s) rfl rfl (ix3 r j 0) (fun b hb => ?_) ?_
    · match b with
      | ⟨0, _⟩ => rfl
      | ⟨1, _⟩ => rfl
      | ⟨2, _⟩ => exact absurd rfl hb
    · show (0 : Nat) + 1 = s.val
      omega

/-- One level of the kernel: from the level's values `cur` and decisions `dsl` (both [R, m]) the next level [R, 2m]
    holds at position k the value at k / 2 times the decision at k / 2 (k even) or one minus it (k odd). -/
theorem interleave_apply {R m m2 : Nat} (hm2 : m2 = 2 * m)
    (cur dsl : FVec Ideal ⟨2, ![R, m]⟩ .f32) (one : EReal)
    (h1 : (⟨2, ![R, m]⟩ : Shape).ShapeCasts ⟨3, ![R, m, 1]⟩)
    (hc : Shape.Concatenates [(⟨3, ![R, m, 1]⟩ : Shape), ⟨3, ![R, m, 1]⟩] ⟨3, ![R, m, 2]⟩ 2)
    (h2 : (⟨3, ![R, m, 2]⟩ : Shape).ShapeCasts ⟨2, ![R, m2]⟩)
    (r : Fin R) (k : Fin m2) (j : Fin m) (hj : j.val = k.val / 2) :
    shapeCast ⟨2, ![R, m2]⟩ (concatenate ⟨3, ![R, m, 2]⟩ 2
        [⟨⟨3, ![R, m, 1]⟩, shapeCast ⟨3, ![R, m, 1]⟩ (mulf cur dsl) h1⟩,
         ⟨⟨3, ![R, m, 1]⟩, shapeCast ⟨3, ![R, m, 1]⟩ (mulf cur (subf (broadcast ⟨2, ![R, m]⟩ one) dsl)) h1⟩] hc) h2 (ix2 r k)
      = cur (ix2 r j) * (if k.val % 2 = 0 then dsl (ix2 r j) else one - dsl (ix2 r j)) := by
  have hs : k.val % 2 < 2 := Nat.mod_lt _ (by omega)
  rw [flattenPairs_apply hm2 _ h2 r k j ⟨k.val % 2, hs⟩ (by show k.val = 2 * j.val + k.val % 2; omega),
    pairLast_apply _ _ hc r j ⟨k.val % 2, hs⟩, addLastUnit_apply _ h1 r j 0, addLastUnit_apply _ h1 r j 0]
  show (if k.val % 2 = 0 then _ else _) = _
  by_cases h0 : k.val % 2 = 0
  · rw [if_pos h0, if_pos h0]; rfl
  · rw [if_neg h0, if_neg h0]; rfl

end Cert.Tree

end
-- ==== Proof.LevelTree.lean ====
/-
  A level of the kernel computes the tree: if the level's values are the probabilities of the nodes m, …, 2m − 1 and
  the decisions are the nodes' decisions, the next level holds the probabilities of the nodes 2m, …, 4m − 1.
-/
import proofs.«170250_j83193516523595_1_alg».proof.Proof.Tree
import proofs.«170250_j83193516523595_1_alg».proof.Proof.Level

noncomputable section

namespace Cert.Tree

open Idealize.ShloMosaic Idealize.ShloMosaic.ValueIdx

/-- Node 2m + k is child k % 2 of node m + k / 2. -/
theorem tree_child (x : EReal) (w b : Nat → EReal) (m k : Nat) (hm : 1 ≤ m) :
    tree x w b (2 * m + k)
      = tree x w b (m + k / 2) * (if k % 2 = 0 then decide x w b (m + k / 2) else 1 - decide x w b (m + k / 2)) := by
  unfold tree
  have e : 2 * m + k = 2 * (m + k / 2) + k % 2 := by omega
  rw [e, reach_child _ (m + k / 2) (k % 2) (by omega) (Nat.mod_lt _ (by omega))]

/-- One level of the kernel, from the tree's values to the tree's values. `D` holds every node's decision; the level's
    decisions are its columns m, …, 2m − 1. -/
theorem level_tree {R m m2 N : Nat} (hm2 : m2 = 2 * m) (hm : 1 ≤ m)
    (cur : FVec Ideal ⟨2, ![R, m]⟩ .f32) (D : FVec Ideal ⟨2, ![R, N]⟩ .f32) (one : EReal) (hone : one = 1)
    (hsl : (⟨2, ![R, N]⟩ : Shape).Slices ![0, m] ⟨2, ![R, m]⟩)
    (h1 : (⟨2, ![R, m]⟩ : Shape).ShapeCasts ⟨3, ![R, m, 1]⟩)
    (hc : Shape.Concatenates [(⟨3, ![R, m, 1]⟩ : Shape), ⟨3, ![R, m, 1]⟩] ⟨3, ![R, m, 2]⟩ 2)
    (h2 : (⟨3, ![R, m, 2]⟩ : Shape).ShapeCasts ⟨2, ![R, m2]⟩)
    (x : Fin R → EReal) (w b : Nat → EReal)
    (hD : ∀ (r : Fin R) (n : Fin N), D (ix2 r n) = decide (x r) w b n.val)
    (hcur : ∀ (r : Fin R) (j : Fin m), cur (ix2 r j) = tree (x r) w b (m + j.val))
    (r : Fin R) (k : Fin m2) :
    shapeCast ⟨2, ![R, m2]⟩ (concatenate ⟨3, ![R, m, 2]⟩ 2
        [⟨⟨3, ![R, m, 1]⟩, shapeCast ⟨3, ![R, m, 1]⟩ (mulf cur (extractStridedSlice ⟨2, ![R, m]⟩ ![0, m] D hsl)) h1⟩,
         ⟨⟨3, ![R, m, 1]⟩, shapeCast ⟨3, ![R, m, 1]⟩
            (mulf cur (subf (broadcast ⟨2, ![R, m]⟩ one) (extractStridedSlice ⟨2, ![R, m]⟩ ![0, m] D hsl))) h1⟩] hc) h2 (ix2 r k)
      = tree (x r) w b (m2 + k.val) := by
  subst hm2
  have hk : k.val / 2 < m := by have := k.isLt; omega
  have hN : m + k.val / 2 < N := by have := hsl.2 1; simp at this; omega
  rw [interleave_apply rfl cur _ one h1 hc h2 r k ⟨k.val / 2, hk⟩ rfl,
    slice2_axis1_apply m D hsl r ⟨k.val / 2, hk⟩ ⟨m + k.val / 2, hN⟩ rfl, hD, hcur, hone]
  show tree (x r) w b (m + k.val / 2)
      * (if k.val % 2 = 0 then decide (x r) w b (m + k.val / 2) else 1 - decide (x r) w b (m + k.val / 2)) = _
  rw [tree_child _ _ _ m k.val hm]

end Cert.Tree

end
-- ==== Proof.KernelPay.lean ====
/-
  The body's stores read at an index. The body computes every node's decision for the block's 1024 samples, then
  walks down the tree one level at a time: the band of columns [2m, 4m) holds, for each node m + j of the level above,
  its probability times its decision (left child) and times one minus its decision (right child). Every band so holds
  the tree's values at its own columns.
-/
import proofs.«170250_j83193516523595_1_alg».proof.Proof.Gen.KernelIdeal.Skeleton
import proofs.«170250_j83193516523595_1_alg».proof.Proof.LevelTree
import Idealize.ShloMosaic.Lib.IdealHost

noncomputable section

namespace Cert.KernelIdeal.Pay

open Cert.KernelIdeal Cert.KernelIdeal.Gen Cert.Tree
open Idealize.ShloMosaic Idealize.ShloMosaic.ValueIdx

/-- Node n's weight (or bias) in a staged row [1, 1024] (0 past the last node: never read). -/
def rowOf (v : FVec Ideal S1x1024 .f32) (n : Nat) : EReal :=
  if h : n < 1024 then v (ix2 (0 : Fin 1) (⟨n, h⟩ : Fin 1024)) else 0

theorem rowOf_lt (v : FVec Ideal S1x1024 .f32) (n : Fin 1024) : rowOf v n.val = v (ix2 (0 : Fin 1) n) := by
  unfold rowOf; rw [dif_pos n.isLt]

/-- The literal 1.0 of the body is the extended real 1. -/
theorem one_eq : (Scalar.ofBits (F := Ideal) .f32 0x3F800000#32 : EReal) = 1 := Ideal.ofBits_one_f32

variable (x0 : FVec Ideal S1024x1 .f32) (x1 x2 : FVec Ideal S1x1024 .f32)

/-- The decisions: sample r's decision at node n is the logistic function of its feature times the node's weight plus
    the node's bias. -/
theorem decisions_apply (r : Fin 1024) (n : Fin 1024) :
    k0_pay5 (F := Ideal) x0 x1 x2 (ix2 r n) = Cert.Tree.decide (x0 (ix2 r (0 : Fin 1))) (rowOf x1) (rowOf x2) n.val := by
  unfold k0_pay5 Cert.Tree.decide
  rw [rowOf_lt, rowOf_lt]
  show Ideal.logistic (broadcastTo S1024x1024 x0 broadcasts_S1024x1_S1024x1024 (ix2 r n)
      * broadcastTo S1024x1024 (shapeCast S1x1024 x1 shapeCasts_S1x1024_S1x1024) broadcasts_S1x1024_S1024x1024 (ix2 r n)
      + broadcastTo S1024x1024 (shapeCast S1x1024 x2 shapeCasts_S1x1024_S1x1024) broadcasts_S1x1024_S1024x1024 (ix2 r n)) = _
  rw [shapeCast_self, shapeCast_self, broadcastTo_1b_ab_apply, broadcastTo_1b_ab_apply,
    broadcastTo_apply x0 broadcasts_S1024x1_S1024x1024 (ix2 r n) (ix2 r (0 : Fin 1)) (fun a => by
      match a with
      | ⟨0, _⟩ => rfl
      | ⟨1, _⟩ => rfl)]

/-- The first two columns hold 1: the root's probability (and the unused column 0). -/
theorem ones_apply (r : Fin 1024) (j : Fin 1) :
    k0_pay6 (F := Ideal) (ix2 r j) = tree (x0 (ix2 r (0 : Fin 1))) (rowOf x1) (rowOf x2) (1 + j.val) := by
  have hj : j.val = 0 := by have := j.isLt; omega
  rw [hj]
  show Scalar.ofBits (F := Ideal) .f32 0x3F800000#32 = _
  rw [one_eq]
  exact (reach_one _).symm

/-- Column 0 (no node) holds 1 as well. -/
theorem ones0_apply (r : Fin 1024) (j : Fin 1) :
    k0_pay6 (F := Ideal) (ix2 r j) = tree (x0 (ix2 r (0 : Fin 1))) (rowOf x1) (rowOf x2) (0 + j.val) := by
  have hj : j.val = 0 := by have := j.isLt; omega
  rw [hj]
  show Scalar.ofBits (F := Ideal) .f32 0x3F800000#32 = _
  rw [one_eq]
  exact (reach_zero _).symm

/-- Columns [2, 4): the root's children. -/
theorem band2_apply (r : Fin 1024) (k : Fin 2) :
    k0_pay7 (F := Ideal) x0 x1 x2 (ix2 r k) = tree (x0 (ix2 r (0 : Fin 1))) (rowOf x1) (rowOf x2) (2 + k.val) :=
  level_tree (R := 1024) (m := 1) (m2 := 2) (N := 1024) rfl (by omega) (k0_pay6 (F := Ideal)) (k0_pay5 (F := Ideal) x0 x1 x2) _ one_eq
    slices_S1024x1024_o0_1_S1024x1 shapeCasts_S1024x1_S1024x1x1 concatenates_S1024x1x1_S1024x1x1_S1024x1x2_d2 shapeCasts_S1024x1x2_S1024x2
    (fun r => x0 (ix2 r (0 : Fin 1))) (rowOf x1) (rowOf x2) (decisions_apply x0 x1 x2) (ones_apply x0 x1 x2) r k

/-- Columns [4, 8). -/
theorem band4_apply (r : Fin 1024) (k : Fin 4) :
    k0_pay8 (F := Ideal) x0 x1 x2 (ix2 r k) = tree (x0 (ix2 r (0 : Fin 1))) (rowOf x1) (rowOf x2) (4 + k.val) :=
  level_tree (R := 1024) (m := 2) (m2 := 4) (N := 1024) rfl (by omega) (k0_pay7 (F := Ideal) x0 x1 x2) (k0_pay5 (F := Ideal) x0 x1 x2) _ one_eq
    slices_S1024x1024_o0_2_S1024x2 shapeCasts_S1024x2_S1024x2x1 concatenates_S1024x2x1_S1024x2x1_S1024x2x2_d2 shapeCasts_S1024x2x2_S1024x4
    (fun r => x0 (ix2 r (0 : Fin 1))) (rowOf x1) (rowOf x2) (decisions_apply x0 x1 x2) (band2_apply x0 x1 x2) r k

/-- The decisions of the block, the names the later bands are stated over. -/
abbrev D : FVec Ideal S1024x1024 .f32 := k0_pay5 (F := Ideal) x0 x1 x2
/-- The band [4, 8), and the decisions of its nodes and their complements, as the second part of the body receives them. -/
abbrev P8 : FVec Ideal S1024x4 .f32 := k0_pay8 (F := Ideal) x0 x1 x2
abbrev P9 : FVec Ideal S1024x4 .f32 := k0_pay9 (F := Ideal) x0 x1 x2
abbrev P10 : FVec Ideal S1024x4 .f32 := k0_pay10 (F := Ideal) x0 x1 x2
/-- The two products of the level of the nodes 64 … 127, as the last part of the body receives them. -/
abbrev V79 : FVec Ideal S1024x64x1 .f32 := k0_pay16 (F := Ideal) (D x0 x1 x2) (P8 x0 x1 x2) (P9 x0 x1 x2) (P10 x0 x1 x2)
abbrev V80 : FVec Ideal S1024x64x1 .f32 := k0_pay17 (F := Ideal) (D x0 x1 x2) (P8 x0 x1 x2) (P9 x0 x1 x2) (P10 x0 x1 x2)

/-- Columns [8, 16): the children of the nodes 4 … 7. -/
theorem band8_apply (r : Fin 1024) (k : Fin 8) :
    k0_pay11 (F := Ideal) (P8 x0 x1 x2) (P9 x0 x1 x2) (P10 x0 x1 x2) (ix2 r k) = tree (x0 (ix2 r (0 : Fin 1))) (rowOf x1) (rowOf x2) (8 + k.val) :=
  level_tree (R := 1024) (m := 4) (m2 := 8) (N := 1024) rfl (by omega) (P8 x0 x1 x2) (k0_pay5 (F := Ideal) x0 x1 x2) _ one_eq
    slices_S1024x1024_o0_4_S1024x4 shapeCasts_S1024x4_S1024x4x1 concatenates_S1024x4x1_S1024x4x1_S1024x4x2_d2 shapeCasts_S1024x4x2_S1024x8
    (fun r => x0 (ix2 r (0 : Fin 1))) (rowOf x1) (rowOf x2) (decisions_apply x0 x1 x2) (band4_apply x0 x1 x2) r k

/-- Columns [16, 32): the children of the nodes 8 … 15. -/
theorem band16_apply (r : Fin 1024) (k : Fin 16) :
    k0_pay12 (F := Ideal) (D x0 x1 x2) (P8 x0 x1 x2) (P9 x0 x1 x2) (P10 x0 x1 x2) (ix2 r k) = tree (x0 (ix2 r (0 : Fin 1))) (rowOf x1) (rowOf x2) (16 + k.val) :=
  level_tree (R := 1024) (m := 8) (m2 := 16) (N := 1024) rfl (by omega) (k0_pay11 (F := Ideal) (P8 x0 x1 x2) (P9 x0 x1 x2) (P10 x0 x1 x2)) (k0_pay5 (F := Ideal) x0 x1 x2) _ one_eq
    slices_S1024x1024_o0_8_S1024x8 shapeCasts_S1024x8_S1024x8x1 concatenates_S1024x8x1_S1024x8x1_S1024x8x2_d2 shapeCasts_S1024x8x2_S1024x16
    (fun r => x0 (ix2 r (0 : Fin 1))) (rowOf x1) (rowOf x2) (decisions_apply x0 x1 x2) (band8_apply x0 x1 x2) r k

/-- Columns [32, 64): the children of the nodes 16 … 31. -/
theorem band32_apply (r : Fin 1024) (k : Fin 32) :
    k0_pay13 (F := Ideal) (D x0 x1 x2) (P8 x0 x1 x2) (P9 x0 x1 x2) (P10 x0 x1 x2) (ix2 r k) = tree (x0 (ix2 r (0 : Fin 1))) (rowOf x1) (rowOf x2) (32 + k.val) :=
  level_tree (R := 1024) (m := 16) (m2 := 32) (N := 1024) rfl (by omega) (k0_pay12 (F := Ideal) (D x0 x1 x2) (P8 x0 x1 x2) (P9 x0 x1 x2) (P10 x0 x1 x2)) (k0_pay5 (F := Ideal) x0 x1 x2) _ one_eq
    slices_S1024x1024_o0_16_S1024x16 shapeCasts_S1024x16_S1024x16x1 concatenates_S1024x16x1_S1024x16x1_S1024x16x2_d2 shapeCasts_S1024x16x2_S1024x32
    (fun r => x0 (ix2 r (0 : Fin 1))) (rowOf x1) (rowOf x2) (decisions_apply x0 x1 x2) (band16_apply x0 x1 x2) r k

/-- Columns [64, 128): the children of the nodes 32 … 63. -/
theorem band64_apply (r : Fin 1024) (k : Fin 64) :
    k0_pay14 (F := Ideal) (D x0 x1 x2) (P8 x0 x1 x2) (P9 x0 x1 x2) (P10 x0 x1 x2) (ix2 r k) = tree (x0 (ix2 r (0 : Fin 1))) (rowOf x1) (rowOf x2) (64 + k.val) :=
  level_tree (R := 1024) (m := 32) (m2 := 64) (N := 1024) rfl (by omega) (k0_pay13 (F := Ideal) (D x0 x1 x2) (P8 x0 x1 x2) (P9 x0 x1 x2) (P10 x0 x1 x2)) (k0_pay5 (F := Ideal) x0 x1 x2) _ one_eq
    slices_S1024x1024_o0_32_S1024x32 shapeCasts_S1024x32_S1024x32x1 concatenates_S1024x32x1_S1024x32x1_S1024x32x2_d2 shapeCasts_S1024x32x2_S1024x64
    (fun r => x0 (ix2 r (0 : Fin 1))) (rowOf x1) (rowOf x2) (decisions_apply x0 x1 x2) (band32_apply x0 x1 x2) r k

/-- Columns [128, 256): the children of the nodes 64 … 127. -/
theorem band128_apply (r : Fin 1024) (k : Fin 128) :
    k0_pay1 (F := Ideal) (V79 x0 x1 x2) (V80 x0 x1 x2) (ix2 r k) = tree (x0 (ix2 r (0 : Fin 1))) (rowOf x1) (rowOf x2) (128 + k.val) :=
  level_tree (R := 1024) (m := 64) (m2 := 128) (N := 1024) rfl (by omega) (k0_pay14 (F := Ideal) (D x0 x1 x2) (P8 x0 x1 x2) (P9 x0 x1 x2) (P10 x0 x1 x2)) (k0_pay5 (F := Ideal) x0 x1 x2) _ one_eq
    slices_S1024x1024_o0_64_S1024x64 shapeCasts_S1024x64_S1024x64x1 concatenates_S1024x64x1_S1024x64x1_S1024x64x2_d2 shapeCasts_S1024x64x2_S1024x128
    (fun r => x0 (ix2 r (0 : Fin 1))) (rowOf x1) (rowOf x2) (decisions_apply x0 x1 x2) (band64_apply x0 x1 x2) r k

/-- Columns [256, 512): the children of the nodes 128 … 255. -/
theorem band256_apply (r : Fin 1024) (k : Fin 256) :
    k0_pay2 (F := Ideal) (D x0 x1 x2) (V79 x0 x1 x2) (V80 x0 x1 x2) (ix2 r k) = tree (x0 (ix2 r (0 : Fin 1))) (rowOf x1) (rowOf x2) (256 + k.val) :=
  level_tree (R := 1024) (m := 128) (m2 := 256) (N := 1024) rfl (by omega) (k0_pay1 (F := Ideal) (V79 x0 x1 x2) (V80 x0 x1 x2)) (k0_pay5 (F := Ideal) x0 x1 x2) _ one_eq
    slices_S1024x1024_o0_128_S1024x128 shapeCasts_S1024x128_S1024x128x1 concatenates_S1024x128x1_S1024x128x1_S1024x128x2_d2 shapeCasts_S1024x128x2_S1024x256
    (fun r => x0 (ix2 r (0 : Fin 1))) (rowOf x1) (rowOf x2) (decisions_apply x0 x1 x2) (band128_apply x0 x1 x2) r k

/-- Columns [512, 1024): the children of the nodes 256 … 511. -/
theorem band512_apply (r : Fin 1024) (k : Fin 512) :
    k0_pay3 (F := Ideal) (D x0 x1 x2) (V79 x0 x1 x2) (V80 x0 x1 x2) (ix2 r k) = tree (x0 (ix2 r (0 : Fin 1))) (rowOf x1) (rowOf x2) (512 + k.val) :=
  level_tree (R := 1024) (m := 256) (m2 := 512) (N := 1024) rfl (by omega) (k0_pay2 (F := Ideal) (D x0 x1 x2) (V79 x0 x1 x2) (V80 x0 x1 x2)) (k0_pay5 (F := Ideal) x0 x1 x2) _ one_eq
    slices_S1024x1024_o0_256_S1024x256 shapeCasts_S1024x256_S1024x256x1 concatenates_S1024x256x1_S1024x256x1_S1024x256x2_d2 shapeCasts_S1024x256x2_S1024x512
    (fun r => x0 (ix2 r (0 : Fin 1))) (rowOf x1) (rowOf x2) (decisions_apply x0 x1 x2) (band256_apply x0 x1 x2) r k

/-- Columns [1024, 2048): the children of the nodes 512 … 1023. -/
theorem band1024_apply (r : Fin 1024) (k : Fin 1024) :
    k0_pay4 (F := Ideal) (D x0 x1 x2) (V79 x0 x1 x2) (V80 x0 x1 x2) (ix2 r k) = tree (x0 (ix2 r (0 : Fin 1))) (rowOf x1) (rowOf x2) (1024 + k.val) :=
  level_tree (R := 1024) (m := 512) (m2 := 1024) (N := 1024) rfl (by omega) (k0_pay3 (F := Ideal) (D x0 x1 x2) (V79 x0 x1 x2) (V80 x0 x1 x2)) (k0_pay5 (F := Ideal) x0 x1 x2) _ one_eq
    slices_S1024x1024_o0_512_S1024x512 shapeCasts_S1024x512_S1024x512x1 concatenates_S1024x512x1_S1024x512x1_S1024x512x2_d2 shapeCasts_S1024x512x2_S1024x1024
    (fun r => x0 (ix2 r (0 : Fin 1))) (rowOf x1) (rowOf x2) (decisions_apply x0 x1 x2) (band512_apply x0 x1 x2) r k

/-! ## The block as one function -/

/-- What the body leaves in the output block, as one function of the block's index: row r holds the tree of the
    block's sample r. -/
def blockFn (y : S1024x2048.Idx) : EReal :=
  tree (x0 (ix2 (y 0 : Fin 1024) (0 : Fin 1))) (rowOf x1) (rowOf x2) (y 1).val

theorem blockFn_apply (r : Fin 1024) (k : Fin 2048) :
    blockFn x0 x1 x2 (ix2 r k) = tree (x0 (ix2 r (0 : Fin 1))) (rowOf x1) (rowOf x2) k.val := rfl

/-- The block's function at an index whose row is r and whose column is n. -/
theorem blockFn_of (y : S1024x2048.Idx) (r : Fin 1024) (n : Nat) (h0 : (y 0).val = r.val) (h1 : (y 1).val = n) :
    blockFn x0 x1 x2 y = tree (x0 (ix2 r (0 : Fin 1))) (rowOf x1) (rowOf x2) n := by
  unfold blockFn
  have e : (y 0 : Fin 1024) = r := Fin.ext h0
  rw [e, h1]

/-- A band of the columns [c, c + w) whose entries are the tree's values at its columns is the block's function
    there: a store's payload at its local index is the block's function at the index under it. -/
theorem band_blockFn {w : Nat} (c : Nat) (inb : ∀ a, (![0, c] : Fin 2 → Nat) a + (![1024, w] : Fin 2 → Nat) a ≤ S1024x2048.size a)
    (pay : (⟨2, ![1024, w]⟩ : Shape).Idx → EReal)
    (hpay : ∀ (r : Fin 1024) (k : Fin w), pay (ix2 r k) = tree (x0 (ix2 r (0 : Fin 1))) (rowOf x1) (rowOf x2) (c + k.val))
    (x : (Rect.unit (s := S1024x2048) ![0, c] ![1024, w] inb).shape.Idx) :
    pay x = blockFn x0 x1 x2 ((Rect.unit (s := S1024x2048) ![0, c] ![1024, w] inb).emb x) := by
  obtain ⟨r, k, rfl⟩ : ∃ (r : Fin 1024) (k : Fin w), x = ix2 r k := ⟨x 0, x 1, eq_ix2 x⟩
  rw [hpay]
  exact (blockFn_of x0 x1 x2 _ r (c + k.val) (by show 0 + 1 * r.val = r.val; omega)
    (by show c + 1 * k.val = c + k.val; omega)).symm

end Cert.KernelIdeal.Pay

end
-- ==== Proof.KernelBlock.lean ====
/-
  What the body leaves in the output's staging buffer: the block's function. The body's twelve stores write the
  column bands {0}, {1}, [2, 4), …, [1024, 2048); each band's payload is the tree's values at its columns, so the
  buffer read back is one function of the block's index, whatever the order of the stores.
-/
import proofs.«170250_j83193516523595_1_alg».proof.Proof.KernelIdealFrame
import proofs.«170250_j83193516523595_1_alg».proof.Proof.KernelPay

set_option maxRecDepth 16384

noncomputable section

namespace Cert.KernelIdeal.Block

open Cert.KernelIdeal Cert.KernelIdeal.Gen Cert.KernelIdeal.GenP Cert.KernelIdeal.Pay Cert.Tree
open Idealize.ShloMosaic Idealize.ShloMosaic.TcCoe Idealize.ShloMosaic.Tactic Idealize.ShloMosaic.ValueIdx

/-- The zero offsets of a load of a whole staging buffer. -/
theorem hz2 : (![0, 0] : Fin 2 → Nat) = fun _ => 0 := by
  funext a; match a with | ⟨0, _⟩ => rfl | ⟨1, _⟩ => rfl

/-- Every store's payload, at its local index, is the block's function at the index under it. -/
theorem pieces_blockFn (c : Dev nD) (i : grid0.Coords) (arg1 : Memref sig .tc .vmem S1024x1 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .f32) (harg4 : arg4.IsWhole)
    (x0 : Vec Ideal S1024x1 .f32) (x1 : Vec Ideal S1x1024 .f32) (x2 : Vec Ideal S1x1024 .f32) :
    ∀ p ∈ (kernelRun0_A (F := Ideal) c i arg1 harg1 arg2 harg2 arg3 harg3 arg4 harg4 x0 x1 x2).1,
      ∀ x : p.1.shape.Idx, p.2 x = blockFn x0 x1 x2 (p.1.emb x) := by
  unfold kernelRun0_A
  dsimp only
  sl_unfold_words
  simp only [View.readAt_eq_ld, harg1.read_unread, harg2.read_unread, harg3.read_unread,
    View.ld_unit_zero (S := S1024x1) hz2, View.ld_unit_zero (S := S1x1024) hz2]
  refine List.forall_mem_cons.2 ⟨?_, ?_⟩
  · dsimp only; exact band_blockFn x0 x1 x2 1024 _ _ (band1024_apply x0 x1 x2)
  refine List.forall_mem_cons.2 ⟨?_, ?_⟩
  · dsimp only; exact band_blockFn x0 x1 x2 512 _ _ (band512_apply x0 x1 x2)
  refine List.forall_mem_cons.2 ⟨?_, ?_⟩
  · dsimp only; exact band_blockFn x0 x1 x2 256 _ _ (band256_apply x0 x1 x2)
  refine List.forall_mem_cons.2 ⟨?_, ?_⟩
  · dsimp only; exact band_blockFn x0 x1 x2 128 _ _ (band128_apply x0 x1 x2)
  refine List.forall_mem_cons.2 ⟨?_, ?_⟩
  · dsimp only; exact band_blockFn x0 x1 x2 64 _ _ (band64_apply x0 x1 x2)
  refine List.forall_mem_cons.2 ⟨?_, ?_⟩
  · dsimp only; exact band_blockFn x0 x1 x2 32 _ _ (band32_apply x0 x1 x2)
  refine List.forall_mem_cons.2 ⟨?_, ?_⟩
  · dsimp only; exact band_blockFn x0 x1 x2 16 _ _ (band16_apply x0 x1 x2)
  refine List.forall_mem_cons.2 ⟨?_, ?_⟩
  · dsimp only; exact band_blockFn x0 x1 x2 8 _ _ (band8_apply x0 x1 x2)
  refine List.forall_mem_cons.2 ⟨?_, ?_⟩
  · dsimp only; exact band_blockFn x0 x1 x2 4 _ _ (band4_apply x0 x1 x2)
  refine List.forall_mem_cons.2 ⟨?_, ?_⟩
  · dsimp only; exact band_blockFn x0 x1 x2 2 _ _ (band2_apply x0 x1 x2)
  refine List.forall_mem_cons.2 ⟨?_, ?_⟩
  · dsimp only; exact band_blockFn x0 x1 x2 1 _ _ (ones_apply x0 x1 x2)
  refine List.forall_mem_cons.2 ⟨?_, ?_⟩
  · dsimp only; exact band_blockFn x0 x1 x2 0 _ _ (ones0_apply x0 x1 x2)
  exact fun _ h => absurd h (List.not_mem_nil)

/-- The output's staging buffer after the body is the block's function of the staged input blocks. -/
theorem out_eq (c : Dev nD) (i : grid0.Coords) (arg1 : Memref sig .tc .vmem S1024x1 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .f32) (harg4 : arg4.IsWhole)
    (x0 : Vec Ideal S1024x1 .f32) (x1 : Vec Ideal S1x1024 .f32) (x2 : Vec Ideal S1x1024 .f32) :
    out0_A_3 (F := Ideal) c i arg1 harg1 arg2 harg2 arg3 harg3 arg4 harg4 x0 x1 x2 = blockFn x0 x1 x2 := by
  unfold out0_A_3
  rw [View.read_writes_eq_canon _ _ _ (cover0_A_3 c i arg1 harg1 arg2 harg2 arg3 harg3 arg4 harg4 x0 x1 x2)]
  funext y
  exact View.canon_apply_of_pieces (blockFn x0 x1 x2) _ (pieces_blockFn c i arg1 harg1 arg2 harg2 arg3 harg3 arg4 harg4 x0 x1 x2) y
    (cover0_A_3 c i arg1 harg1 arg2 harg2 arg3 harg3 arg4 harg4 x0 x1 x2 y)

end Cert.KernelIdeal.Block

end
-- ==== Proof.Spec.lean ====
/-
  The result array as ONE function of the three arguments: row r is the tree of sample r (feature x[r, 0]) with node n's
  weight W[n, 0, 0] and bias b[n, 0]; column k is the probability of arriving at node k.
-/
import proofs.«170250_j83193516523595_1_alg».proof.Proof.Tree

noncomputable section

namespace Cert.Tree

open Idealize.ShloMosaic Idealize.ShloMosaic.ValueIdx

/-- Node n's weight, read off the weight array [1024, 1, 1] (0 past the last node: never read). -/
def wOf (W : FVec Ideal ⟨3, ![1024, 1, 1]⟩ .f32) (n : Nat) : EReal :=
  if h : n < 1024 then W (ix3 (⟨n, h⟩ : Fin 1024) (0 : Fin 1) (0 : Fin 1)) else 0

/-- Node n's bias, read off the bias array [1024, 1] (0 past the last node: never read). -/
def bOf (b : FVec Ideal ⟨2, ![1024, 1]⟩ .f32) (n : Nat) : EReal :=
  if h : n < 1024 then b (ix2 (⟨n, h⟩ : Fin 1024) (0 : Fin 1)) else 0

/-- The result at row r, column k. -/
def GAt (x : FVec Ideal ⟨2, ![65536, 1]⟩ .f32) (W : FVec Ideal ⟨3, ![1024, 1, 1]⟩ .f32) (b : FVec Ideal ⟨2, ![1024, 1]⟩ .f32)
    (r : Fin 65536) (k : Fin 2048) : EReal :=
  tree (x (ix2 r (0 : Fin 1))) (wOf W) (bOf b) k.val

/-- The result array. -/
def G (x : FVec Ideal ⟨2, ![65536, 1]⟩ .f32) (W : FVec Ideal ⟨3, ![1024, 1, 1]⟩ .f32) (b : FVec Ideal ⟨2, ![1024, 1]⟩ .f32) :
    FVec Ideal ⟨2, ![65536, 2048]⟩ .f32 :=
  fun i => GAt x W b (i 0) (i 1)

theorem G_apply (x : FVec Ideal ⟨2, ![65536, 1]⟩ .f32) (W : FVec Ideal ⟨3, ![1024, 1, 1]⟩ .f32) (b : FVec Ideal ⟨2, ![1024, 1]⟩ .f32)
    (r : Fin 65536) (k : Fin 2048) :
    G x W b (ix2 r k) = tree (x (ix2 r (0 : Fin 1))) (wOf W) (bOf b) k.val := rfl

theorem wOf_lt (W : FVec Ideal ⟨3, ![1024, 1, 1]⟩ .f32) (n : Fin 1024) : wOf W n.val = W (ix3 n (0 : Fin 1) (0 : Fin 1)) := by
  unfold wOf; rw [dif_pos n.isLt]

theorem bOf_lt (b : FVec Ideal ⟨2, ![1024, 1]⟩ .f32) (n : Fin 1024) : bOf b n.val = b (ix2 n (0 : Fin 1)) := by
  unfold bOf; rw [dif_pos n.isLt]

end Cert.Tree

end
-- ==== Proof.KernelValue.lean ====
/-
  From the blocks to the array. Grid point t stages rows [1024 t, 1024 t + 1024) of the samples and the whole weight and
  bias rows, and writes back rows [1024 t, 1024 t + 1024) of the result. What it writes is the block's function of what
  it staged, which is the restriction to those rows of one function of the whole arrays; the 64 blocks cover the result.
  The weight and bias rows the region stages are the arguments W [1024, 1, 1] and b [1024, 1] reshaped to [1, 1024].
-/
import proofs.«170250_j83193516523595_1_alg».proof.Proof.KernelIdealValue
import proofs.«170250_j83193516523595_1_alg».proof.Proof.KernelBlock
import proofs.«170250_j83193516523595_1_alg».proof.Proof.Spec
import Idealize.ShloMosaic.Lib.StableHlo.Run

set_option maxRecDepth 16384

noncomputable section

namespace Cert.KernelIdeal.KValue

open Cert.KernelIdeal Cert.KernelIdeal.Gen Cert.KernelIdeal.GenP Cert.KernelIdeal.ValueP Cert.KernelIdeal.Pay Cert.Tree
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The result array as one function of the arrays the region finds: the samples [65536, 1] and the weight and bias
    rows [1, 1024]. -/
def arrFn (X : FVec Ideal S65536x1 .f32) (w1 b1 : FVec Ideal S1x1024 .f32) : S65536x2048.Idx → EReal :=
  fun i => tree (X (ix2 (i 0 : Fin 65536) (0 : Fin 1))) (rowOf w1) (rowOf b1) (i 1).val

/-- The printed index maps, decided over the 64 grid points: the samples' block moves with the result's block, the
    weight and bias rows stay at block (0, 0), and the result's block is (t, 0). -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 63 :=
  (by decide +kernel : ∀ t : Fin grid0.N, _)

/-- Every block row of the result is some point's. -/
theorem idx_onto : ∀ q : Fin 64, ∃ t : Fin cfg0.N, win0_3.index t = ![q.val, 0] :=
  (by decide +kernel : ∀ q : Fin 64, ∃ t : Fin grid0.N, win0_3.index t = ![q.val, 0])

/-- The array's function at an index whose row is R and whose column is n. -/
theorem arrFn_of (X : FVec Ideal S65536x1 .f32) (w1 b1 : FVec Ideal S1x1024 .f32) (i : S65536x2048.Idx) (R : Fin 65536) (n : Nat)
    (h0 : (i 0).val = R.val) (h1 : (i 1).val = n) :
    arrFn X w1 b1 i = tree (X (ix2 R (0 : Fin 1))) (rowOf w1) (rowOf b1) n := by
  unfold arrFn
  have e : (i 0 : Fin 65536) = R := Fin.ext h0
  rw [e, h1]

/-- The block's function of block q of the samples and the whole rows is the array's function on the block's rows. -/
theorem blockFn_eq_arrFn (X : FVec Ideal S65536x1 .f32) (w1 b1 : FVec Ideal S1x1024 .f32)
    (x0 : FVec Ideal S1024x1 .f32) (x1 x2 : FVec Ideal S1x1024 .f32) (q : Nat) (hq : q ≤ 63)
    (h0 : ∀ r : Fin 1024, x0 (ix2 r (0 : Fin 1)) = X (ix2 (⟨q * 1024 + r.val, by have := r.isLt; omega⟩ : Fin 65536) (0 : Fin 1)))
    (h1 : x1 = w1) (h2 : x2 = b1)
    (r : Fin 1024) (k : Fin 2048) (i : S65536x2048.Idx) (hi0 : (i 0).val = q * 1024 + r.val) (hi1 : (i 1).val = k.val) :
    blockFn x0 x1 x2 (ix2 r k) = arrFn X w1 b1 i := by
  subst h1 h2
  rw [arrFn_of X x1 x2 i ⟨q * 1024 + r.val, by have := r.isLt; omega⟩ k.val hi0 hi1, blockFn_apply, h0 r]

/-- What point t writes back is block t of the array's function of the arrays as the region finds them. -/
theorem flushed_eq (c : Dev nD) (t : Fin cfg0.N) :
    (dats m 0 c).flushed 3 t
      = ((cfg0.win 3).blk t).view.read (Elt Ideal) (arrFn (V m c main_arg0) (V m c main_v0) (V m c main_v1)) := by
  rw [flushed3_A]
  have hb := Block.out_eq c (grid0.coords t) (ms0_0 t) (hs0_0 t) (ms0_1 t) (hs0_1 t) (ms0_2 t) (hs0_2 t) (ms0_3 t) (hs0_3 t)
    (iblk m c 0 t) (iblk m c 1 t) (iblk m c 2 t)
  rw [hb]
  obtain ⟨e0, e1, e2, e3, e4, e5, e6, e7⟩ := idx_facts t
  funext j
  obtain ⟨r, k, rfl⟩ : ∃ (r : Fin 1024) (k : Fin 2048), j = ix2 r k := ⟨j 0, j 1, eq_ix2 j⟩
  show blockFn (iblk m c 0 t) (iblk m c 1 t) (iblk m c 2 t) (ix2 r k)
    = arrFn (V m c main_arg0) (V m c main_v0) (V m c main_v1) (((cfg0.win 3).blk t).view.emb (ix2 r k))
  refine blockFn_eq_arrFn (V m c main_arg0) (V m c main_v0) (V m c main_v1) (iblk m c 0 t) (iblk m c 1 t) (iblk m c 2 t)
    (win0_3.index t (0 : Fin 2)) e7 (fun r => ?_) ?_ ?_ r k _ ?_ ?_
  · show V m c main_arg0 (((cfg0.win 0).blk t).view.emb (ix2 r (0 : Fin 1))) = _
    congr 1
    funext a; apply Fin.ext
    match a with
    | ⟨0, _⟩ => show win0_0.index t (0 : Fin 2) * 1024 + 1 * r.val = win0_3.index t (0 : Fin 2) * 1024 + r.val; omega
    | ⟨1, _⟩ => show win0_0.index t (1 : Fin 2) * 1 + 1 * 0 = 0; omega
  · funext y
    show V m c main_v0 (((cfg0.win 1).blk t).view.emb y) = V m c main_v0 y
    congr 1
    funext a; apply Fin.ext
    match a with
    | ⟨0, _⟩ => show win0_1.index t (0 : Fin 2) * 1 + 1 * (y 0).val = (y 0).val; omega
    | ⟨1, _⟩ => show win0_1.index t (1 : Fin 2) * 1024 + 1 * (y 1).val = (y 1).val; omega
  · funext y
    show V m c main_v1 (((cfg0.win 2).blk t).view.emb y) = V m c main_v1 y
    congr 1
    funext a; apply Fin.ext
    match a with
    | ⟨0, _⟩ => show win0_2.index t (0 : Fin 2) * 1 + 1 * (y 0).val = (y 0).val; omega
    | ⟨1, _⟩ => show win0_2.index t (1 : Fin 2) * 1024 + 1 * (y 1).val = (y 1).val; omega
  · show win0_3.index t (0 : Fin 2) * 1024 + 1 * r.val = win0_3.index t (0 : Fin 2) * 1024 + r.val; omega
  · show win0_3.index t (1 : Fin 2) * 2048 + 1 * k.val = k.val; omega

/-- An index of the result is in point t's block iff each coordinate is in the block's range on its axis. -/
theorem mem_blk (t : Fin cfg0.N) (i : S65536x2048.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v2).slice (win0_3.rect t)).set ↔ _
  rw [View.set_slice_whole, Rect.mem_set_unit]
  exact Iff.rfl

/-- Row R of the result lies in the block of point R / 1024: the 64 blocks cover the result. -/
theorem cover (i : S65536x2048.Idx) : ∃ t : Fin cfg0.N, (cfg0.win 3).flush t = true ∧ i ∈ ((cfg0.win 3).blk t).view.set := by
  have hi0 : (i 0).val < 65536 := (i 0).isLt
  have hi1 : (i 1).val < 2048 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

/-- The result array after the run, as the array's function of the arrays the region finds. -/
theorem final (c : Dev nD) :
    (dats m 0 c).arrAt 3 cfg0.N = arrFn (V m c main_arg0) (V m c main_v0) (V m c main_v1) :=
  (dats m 0 c).arrAt_eq_of_cover 3 _ (fun t _ => flushed_eq m c t) cover

/-- The weight row the region finds is the argument W reshaped. -/
theorem V_v0 (c : Dev nD) : (V m c main_v0 : S1x1024.Idx → EReal)
    = shapeCast S1x1024 (m ((c : Thread nD τ).loc main_arg1)) shapeCasts_S1024x1x1_S1x1024 := by
  dsimp only [V, hostOps0]; after_results; rfl

/-- The bias row the region finds is the argument b reshaped. -/
theorem V_v1 (c : Dev nD) : (V m c main_v1 : S1x1024.Idx → EReal)
    = shapeCast S1x1024 (m ((c : Thread nD τ).loc main_arg2)) shapeCasts_S1024x1_S1x1024 := by
  dsimp only [V, hostOps0]; after_results; rfl

/-- Node n's weight in the reshaped row is W[n, 0, 0]. -/
theorem rowOf_reshape_W (W : FVec Ideal S1024x1x1 .f32) (n : Nat) :
    rowOf (shapeCast S1x1024 W shapeCasts_S1024x1x1_S1x1024) n = wOf W n := by
  unfold rowOf wOf
  by_cases h : n < 1024
  · rw [dif_pos h, dif_pos h]
    refine shapeCast_apply W _ (ix2 (0 : Fin 1) (⟨n, h⟩ : Fin 1024)) (ix3 (⟨n, h⟩ : Fin 1024) (0 : Fin 1) (0 : Fin 1)) ?_
    rw [Shape.rowMajor_val_three, Shape.rowMajor_val_two]
    show (n * 1 + 0) * 1 + 0 = 0 * 1024 + n
    omega
  · rw [dif_neg h, dif_neg h]

/-- Node n's bias in the reshaped row is b[n, 0]. -/
theorem rowOf_reshape_b (b : FVec Ideal S1024x1 .f32) (n : Nat) :
    rowOf (shapeCast S1x1024 b shapeCasts_S1024x1_S1x1024) n = bOf b n := by
  unfold rowOf bOf
  by_cases h : n < 1024
  · rw [dif_pos h, dif_pos h]
    refine shapeCast_apply b _ (ix2 (0 : Fin 1) (⟨n, h⟩ : Fin 1024)) (ix2 (⟨n, h⟩ : Fin 1024) (0 : Fin 1)) ?_
    rw [Shape.rowMajor_val_two, Shape.rowMajor_val_two]
    show n * 1 + 0 = 0 * 1024 + n
    omega
  · rw [dif_neg h, dif_neg h]

/-- The array's function of the reshaped rows is the result array of the arguments. -/
theorem arrFn_reshape (X : FVec Ideal S65536x1 .f32) (W : FVec Ideal S1024x1x1 .f32) (b : FVec Ideal S1024x1 .f32) :
    arrFn X (shapeCast S1x1024 W shapeCasts_S1024x1x1_S1x1024) (shapeCast S1x1024 b shapeCasts_S1024x1_S1x1024)
      = Cert.Tree.G X W b := by
  funext i
  unfold arrFn
  show _ = tree (X (ix2 (i 0 : Fin 65536) (0 : Fin 1))) (wOf W) (bOf b) (i 1).val
  rw [show rowOf (shapeCast S1x1024 W shapeCasts_S1024x1x1_S1x1024) = wOf W from funext (rowOf_reshape_W W),
    show rowOf (shapeCast S1x1024 b shapeCasts_S1024x1_S1x1024) = bOf b from funext (rowOf_reshape_b b)]

/-- The kernel's run with its result named: the tree of the argument arrays; the arguments unchanged. -/
theorem run : θ_run defs (onTc (τ := τ) (main (F := Ideal))) ⟨m, fun _ => 0, ρ⟩ fun r => ∀ c : Dev nD,
      r.2.mem ((c : Thread nD τ).loc main_v2)
          = Cert.Tree.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (by
      rw [final m c, V_v0 m c, V_v1 m c, V_main_arg0 m c]
      exact arrFn_reshape _ _ _), (h c).2⟩)
    (run_blocks m ρ)

end Cert.KernelIdeal.KValue

end
-- ==== Proof.RefRun.lean ====
/-
  The reference's run, read stretch by stretch. The reference is a straight line of 93 operations: a prelude that makes
  every node's decision, the pairs (decision, 1 − decision) and the starting array of ones; ten levels of seven
  operations, each reading the newest array of probabilities and the pairs and writing the array with one more level;
  and a tail that sets column 0. Each stretch is read over ARBITRARY contents of the buffers it reads, so that what a
  level writes is stated over the NAMES of the two arrays it reads and never over their terms; the stretches are then
  joined in order.
-/
import proofs.«170250_j83193516523595_1_alg».proof.Proof.RefOps
import Idealize.ShloMosaic.Lib.StableHlo.Run
import Idealize.ShloMosaic.Lib.Pipeline.Frame

noncomputable section

namespace Cert.ReferenceIdeal.RunH

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-! ## The operation list, cut before every level -/

/-- The prelude: the first 18 operations (the decisions main_v9, the pairs main_v12, the ones main_v13). -/
abbrev prelude : List (HloOp τ sig (Elt F)) :=
  [ binary main_arg0 main_arg1 main_v0 ((fun l r => Host.dotGeneral dot_S65536x1_S1024x1x1_S65536x1024x1_1_2_0_01_n_n none l r) : (⟨S65536x1, .f32⟩ : BufTy).Contents (Elt F) → (⟨S1024x1x1, .f32⟩ : BufTy).Contents (Elt F) → (⟨S65536x1024x1, .f32⟩ : BufTy).Contents (Elt F)),
    unary main_arg2 main_v1 (broadcastInDim S1x1024x1 ![1, 2] bcast_S1024x1_S1x1024x1_1_2 : (⟨S1024x1, .f32⟩ : BufTy).Contents (Elt F) → (⟨S1x1024x1, .f32⟩ : BufTy).Contents (Elt F)),
    unary main_v1 main_v2 (broadcastInDim S65536x1024x1 ![0, 1, 2] bcast_S1x1024x1_S65536x1024x1_0_1_2 : (⟨S1x1024x1, .f32⟩ : BufTy).Contents (Elt F) → (⟨S65536x1024x1, .f32⟩ : BufTy).Contents (Elt F)),
    binary main_v0 main_v2 main_v3 (addf : (⟨S65536x1024x1, .f32⟩ : BufTy).Contents (Elt F) → (⟨S65536x1024x1, .f32⟩ : BufTy).Contents (Elt F) → (⟨S65536x1024x1, .f32⟩ : BufTy).Contents (Elt F)),
    unary main_v3 main_v4 (Host.negf : (⟨S65536x1024x1, .f32⟩ : BufTy).Contents (Elt F) → (⟨S65536x1024x1, .f32⟩ : BufTy).Contents (Elt F)),
    unary main_v4 main_v5 (Host.exp : (⟨S65536x1024x1, .f32⟩ : BufTy).Contents (Elt F) → (⟨S65536x1024x1, .f32⟩ : BufTy).Contents (Elt F)),
    nullary main_cst (constant S_ .f32 0x3F800000#32),
    unary main_cst main_v6 (broadcastInDim S65536x1024x1 ![] bcast_S_S65536x1024x1 : (⟨S_, .f32⟩ : BufTy).Contents (Elt F) → (⟨S65536x1024x1, .f32⟩ : BufTy).Contents (Elt F)),
    binary main_v6 main_v5 main_v7 (addf : (⟨S65536x1024x1, .f32⟩ : BufTy).Contents (Elt F) → (⟨S65536x1024x1, .f32⟩ : BufTy).Contents (Elt F) → (⟨S65536x1024x1, .f32⟩ : BufTy).Contents (Elt F)),
    nullary main_cst_0 (constant S_ .f32 0x3F800000#32),
    unary main_cst_0 main_v8 (broadcastInDim S65536x1024x1 ![] bcast_S_S65536x1024x1 : (⟨S_, .f32⟩ : BufTy).Contents (Elt F) → (⟨S65536x1024x1, .f32⟩ : BufTy).Contents (Elt F)),
    binary main_v8 main_v7 main_v9 (Host.divf : (⟨S65536x1024x1, .f32⟩ : BufTy).Contents (Elt F) → (⟨S65536x1024x1, .f32⟩ : BufTy).Contents (Elt F) → (⟨S65536x1024x1, .f32⟩ : BufTy).Contents (Elt F)),
    nullary main_cst_1 (constant S_ .f32 0x3F800000#32),
    unary main_cst_1 main_v10 (broadcastInDim S65536x1024x1 ![] bcast_S_S65536x1024x1 : (⟨S_, .f32⟩ : BufTy).Contents (Elt F) → (⟨S65536x1024x1, .f32⟩ : BufTy).Contents (Elt F)),
    binary main_v10 main_v9 main_v11 (subf : (⟨S65536x1024x1, .f32⟩ : BufTy).Contents (Elt F) → (⟨S65536x1024x1, .f32⟩ : BufTy).Contents (Elt F) → (⟨S65536x1024x1, .f32⟩ : BufTy).Contents (Elt F)),
    binary main_v9 main_v11 main_v12 ((fun a b => concatenate S65536x1024x2 2 [⟨S65536x1024x1, a⟩, ⟨S65536x1024x1, b⟩] concatenates_S65536x1024x1_S65536x1024x1_S65536x1024x2_d2) : (⟨S65536x1024x1, .f32⟩ : BufTy).Contents (Elt F) → (⟨S65536x1024x1, .f32⟩ : BufTy).Contents (Elt F) → (⟨S65536x1024x2, .f32⟩ : BufTy).Contents (Elt F)),
    nullary main_cst_2 (constant S_ .f32 0x3F800000#32),
    unary main_cst_2 main_v13 (broadcastInDim S65536x2 ![] bcast_S_S65536x2 : (⟨S_, .f32⟩ : BufTy).Contents (Elt F) → (⟨S65536x2, .f32⟩ : BufTy).Contents (Elt F)) ]

/-- Level 0 (of the nodes 1 … 1): reads main_v13 and main_v12, writes main_v14 … main_v20. -/
abbrev L0 : List (HloOp τ sig (Elt F)) :=
  [ unary main_v13 main_v14 ((extractStridedSlice S65536x1 ![0, 1] · slices_S65536x2_S65536x1_0_1) : (⟨S65536x2, .f32⟩ : BufTy).Contents (Elt F) → (⟨S65536x1, .f32⟩ : BufTy).Contents (Elt F)),
    unary main_v14 main_v15 (broadcastInDim S65536x1x1 ![0, 1] bcast_S65536x1_S65536x1x1_0_1 : (⟨S65536x1, .f32⟩ : BufTy).Contents (Elt F) → (⟨S65536x1x1, .f32⟩ : BufTy).Contents (Elt F)),
    unary main_v12 main_v16 ((extractStridedSlice S65536x1x2 ![0, 1, 0] · slices_S65536x1024x2_S65536x1x2_0_1_0) : (⟨S65536x1024x2, .f32⟩ : BufTy).Contents (Elt F) → (⟨S65536x1x2, .f32⟩ : BufTy).Contents (Elt F)),
    unary main_v15 main_v17 (broadcastInDim S65536x1x2 ![0, 1, 2] bcast_S65536x1x1_S65536x1x2_0_1_2 : (⟨S65536x1x1, .f32⟩ : BufTy).Contents (Elt F) → (⟨S65536x1x2, .f32⟩ : BufTy).Contents (Elt F)),
    binary main_v17 main_v16 main_v18 (mulf : (⟨S65536x1x2, .f32⟩ : BufTy).Contents (Elt F) → (⟨S65536x1x2, .f32⟩ : BufTy).Contents (Elt F) → (⟨S65536x1x2, .f32⟩ : BufTy).Contents (Elt F)),
    reshape main_v18 main_v19 rfl shapeCasts_S65536x1x2_S65536x2,
    binary main_v13 main_v19 main_v20 ((fun a b => concatenate S65536x4 1 [⟨S65536x2, a⟩, ⟨S65536x2, b⟩] concatenates_S65536x2_S65536x2_S65536x4_d1) : (⟨S65536x2, .f32⟩ : BufTy).Contents (Elt F) → (⟨S65536x2, .f32⟩ : BufTy).Contents (Elt F) → (⟨S65536x4, .f32⟩ : BufTy).Contents (Elt F)) ]

/-- Level 1 (of the nodes 2 … 3): reads main_v20 and main_v12, writes main_v21 … main_v27. -/
abbrev L1 : List (HloOp τ sig (Elt F)) :=
  [ unary main_v20 main_v21 ((extractStridedSlice S65536x2 ![0, 2] · slices_S65536x4_S65536x2_0_2) : (⟨S65536x4, .f32⟩ : BufTy).Contents (Elt F) → (⟨S65536x2, .f32⟩ : BufTy).Contents (Elt F)),
    unary main_v21 main_v22 (broadcastInDim S65536x2x1 ![0, 1] bcast_S65536x2_S65536x2x1_0_1 : (⟨S65536x2, .f32⟩ : BufTy).Contents (Elt F) → (⟨S65536x2x1, .f32⟩ : BufTy).Contents (Elt F)),
    unary main_v12 main_v23 ((extractStridedSlice S65536x2x2 ![0, 2, 0] · slices_S65536x1024x2_S65536x2x2_0_2_0) : (⟨S65536x1024x2, .f32⟩ : BufTy).Contents (Elt F) → (⟨S65536x2x2, .f32⟩ : BufTy).Contents (Elt F)),
    unary main_v22 main_v24 (broadcastInDim S65536x2x2 ![0, 1, 2] bcast_S65536x2x1_S65536x2x2_0_1_2 : (⟨S65536x2x1, .f32⟩ : BufTy).Contents (Elt F) → (⟨S65536x2x2, .f32⟩ : BufTy).Contents (Elt F)),
    binary main_v24 main_v23 main_v25 (mulf : (⟨S65536x2x2, .f32⟩ : BufTy).Contents (Elt F) → (⟨S65536x2x2, .f32⟩ : BufTy).Contents (Elt F) → (⟨S65536x2x2, .f32⟩ : BufTy).Contents (Elt F)),
    reshape main_v25 main_v26 rfl shapeCasts_S65536x2x2_S65536x4,
    binary main_v20 main_v26 main_v27 ((fun a b => concatenate S65536x8 1 [⟨S65536x4, a⟩, ⟨S65536x4, b⟩] concatenates_S65536x4_S65536x4_S65536x8_d1) : (⟨S65536x4, .f32⟩ : BufTy).Contents (Elt F) → (⟨S65536x4, .f32⟩ : BufTy).Contents (Elt F) → (⟨S65536x8, .f32⟩ : BufTy).Contents (Elt F)) ]

/-- Level 2 (of the nodes 4 … 7): reads main_v27 and main_v12, writes main_v28 … main_v34. -/
abbrev L2 : List (HloOp τ sig (Elt F)) :=
  [ unary main_v27 main_v28 ((extractStridedSlice S65536x4 ![0, 4] · slices_S65536x8_S65536x4_0_4) : (⟨S65536x8, .f32⟩ : BufTy).Contents (Elt F) → (⟨S65536x4, .f32⟩ : BufTy).Contents (Elt F)),
    unary main_v28 main_v29 (broadcastInDim S65536x4x1 ![0, 1] bcast_S65536x4_S65536x4x1_0_1 : (⟨S65536x4, .f32⟩ : BufTy).Contents (Elt F) → (⟨S65536x4x1, .f32⟩ : BufTy).Contents (Elt F)),
    unary main_v12 main_v30 ((extractStridedSlice S65536x4x2 ![0, 4, 0] · slices_S65536x1024x2_S65536x4x2_0_4_0) : (⟨S65536x1024x2, .f32⟩ : BufTy).Contents (Elt F) → (⟨S65536x4x2, .f32⟩ : BufTy).Contents (Elt F)),
    unary main_v29 main_v31 (broadcastInDim S65536x4x2 ![0, 1, 2] bcast_S65536x4x1_S65536x4x2_0_1_2 : (⟨S65536x4x1, .f32⟩ : BufTy).Contents (Elt F) → (⟨S65536x4x2, .f32⟩ : BufTy).Contents (Elt F)),
    binary main_v31 main_v30 main_v32 (mulf : (⟨S65536x4x2, .f32⟩ : BufTy).Contents (Elt F) → (⟨S65536x4x2, .f32⟩ : BufTy).Contents (Elt F) → (⟨S65536x4x2, .f32⟩ : BufTy).Contents (Elt F)),
    reshape main_v32 main_v33 rfl shapeCasts_S65536x4x2_S65536x8,
    binary main_v27 main_v33 main_v34 ((fun a b => concatenate S65536x16 1 [⟨S65536x8, a⟩, ⟨S65536x8, b⟩] concatenates_S65536x8_S65536x8_S65536x16_d1) : (⟨S65536x8, .f32⟩ : BufTy).Contents (Elt F) → (⟨S65536x8, .f32⟩ : BufTy).Contents (Elt F) → (⟨S65536x16, .f32⟩ : BufTy).Contents (Elt F)) ]

/-- Level 3 (of the nodes 8 … 15): reads main_v34 and main_v12, writes main_v35 … main_v41. -/
abbrev L3 : List (HloOp τ sig (Elt F)) :=
  [ unary main_v34 main_v35 ((extractStridedSlice S65536x8 ![0, 8] · slices_S65536x16_S65536x8_0_8) : (⟨S65536x16, .f32⟩ : BufTy).Contents (Elt F) → (⟨S65536x8, .f32⟩ : BufTy).Contents (Elt F)),
    unary main_v35 main_v36 (broadcastInDim S65536x8x1 ![0, 1] bcast_S65536x8_S65536x8x1_0_1 : (⟨S65536x8, .f32⟩ : BufTy).Contents (Elt F) → (⟨S65536x8x1, .f32⟩ : BufTy).Contents (Elt F)),
    unary main_v12 main_v37 ((extractStridedSlice S65536x8x2 ![0, 8, 0] · slices_S65536x1024x2_S65536x8x2_0_8_0) : (⟨S65536x1024x2, .f32⟩ : BufTy).Contents (Elt F) → (⟨S65536x8x2, .f32⟩ : BufTy).Contents (Elt F)),
    unary main_v36 main_v38 (broadcastInDim S65536x8x2 ![0, 1, 2] bcast_S65536x8x1_S65536x8x2_0_1_2 : (⟨S65536x8x1, .f32⟩ : BufTy).Contents (Elt F) → (⟨S65536x8x2, .f32⟩ : BufTy).Contents (Elt F)),
    binary main_v38 main_v37 main_v39 (mulf : (⟨S65536x8x2, .f32⟩ : BufTy).Contents (Elt F) → (⟨S65536x8x2, .f32⟩ : BufTy).Contents (Elt F) → (⟨S65536x8x2, .f32⟩ : BufTy).Contents (Elt F)),
    reshape main_v39 main_v40 rfl shapeCasts_S65536x8x2_S65536x16,
    binary main_v34 main_v40 main_v41 ((fun a b => concatenate S65536x32 1 [⟨S65536x16, a⟩, ⟨S65536x16, b⟩] concatenates_S65536x16_S65536x16_S65536x32_d1) : (⟨S65536x16, .f32⟩ : BufTy).Contents (Elt F) → (⟨S65536x16, .f32⟩ : BufTy).Contents (Elt F) → (⟨S65536x32, .f32⟩ : BufTy).Contents (Elt F)) ]

/-- Level 4 (of the nodes 16 … 31): reads main_v41 and main_v12, writes main_v42 … main_v48. -/
abbrev L4 : List (HloOp τ sig (Elt F)) :=
  [ unary main_v41 main_v42 ((extractStridedSlice S65536x16 ![0, 16] · slices_S65536x32_S65536x16_0_16) : (⟨S65536x32, .f32⟩ : BufTy).Contents (Elt F) → (⟨S65536x16, .f32⟩ : BufTy).Contents (Elt F)),
    unary main_v42 main_v43 (broadcastInDim S65536x16x1 ![0, 1] bcast_S65536x16_S65536x16x1_0_1 : (⟨S65536x16, .f32⟩ : BufTy).Contents (Elt F) → (⟨S65536x16x1, .f32⟩ : BufTy).Contents (Elt F)),
    unary main_v12 main_v44 ((extractStridedSlice S65536x16x2 ![0, 16, 0] · slices_S65536x1024x2_S65536x16x2_0_16_0) : (⟨S65536x1024x2, .f32⟩ : BufTy).Contents (Elt F) → (⟨S65536x16x2, .f32⟩ : BufTy).Contents (Elt F)),
    unary main_v43 main_v45 (broadcastInDim S65536x16x2 ![0, 1, 2] bcast_S65536x16x1_S65536x16x2_0_1_2 : (⟨S65536x16x1, .f32⟩ : BufTy).Contents (Elt F) → (⟨S65536x16x2, .f32⟩ : BufTy).Contents (Elt F)),
    binary main_v45 main_v44 main_v46 (mulf : (⟨S65536x16x2, .f32⟩ : BufTy).Contents (Elt F) → (⟨S65536x16x2, .f32⟩ : BufTy).Contents (Elt F) → (⟨S65536x16x2, .f32⟩ : BufTy).Contents (Elt F)),
    reshape main_v46 main_v47 rfl shapeCasts_S65536x16x2_S65536x32,
    binary main_v41 main_v47 main_v48 ((fun a b => concatenate S65536x64 1 [⟨S65536x32, a⟩, ⟨S65536x32, b⟩] concatenates_S65536x32_S65536x32_S65536x64_d1) : (⟨S65536x32, .f32⟩ : BufTy).Contents (Elt F) → (⟨S65536x32, .f32⟩ : BufTy).Contents (Elt F) → (⟨S65536x64, .f32⟩ : BufTy).Contents (Elt F)) ]

/-- Level 5 (of the nodes 32 … 63): reads main_v48 and main_v12, writes main_v49 … main_v55. -/
abbrev L5 : List (HloOp τ sig (Elt F)) :=
  [ unary main_v48 main_v49 ((extractStridedSlice S65536x32 ![0, 32] · slices_S65536x64_S65536x32_0_32) : (⟨S65536x64, .f32⟩ : BufTy).Contents (Elt F) → (⟨S65536x32, .f32⟩ : BufTy).Contents (Elt F)),
    unary main_v49 main_v50 (broadcastInDim S65536x32x1 ![0, 1] bcast_S65536x32_S65536x32x1_0_1 : (⟨S65536x32, .f32⟩ : BufTy).Contents (Elt F) → (⟨S65536x32x1, .f32⟩ : BufTy).Contents (Elt F)),
    unary main_v12 main_v51 ((extractStridedSlice S65536x32x2 ![0, 32, 0] · slices_S65536x1024x2_S65536x32x2_0_32_0) : (⟨S65536x1024x2, .f32⟩ : BufTy).Contents (Elt F) → (⟨S65536x32x2, .f32⟩ : BufTy).Contents (Elt F)),
    unary main_v50 main_v52 (broadcastInDim S65536x32x2 ![0, 1, 2] bcast_S65536x32x1_S65536x32x2_0_1_2 : (⟨S65536x32x1, .f32⟩ : BufTy).Contents (Elt F) → (⟨S65536x32x2, .f32⟩ : BufTy).Contents (Elt F)),
    binary main_v52 main_v51 main_v53 (mulf : (⟨S65536x32x2, .f32⟩ : BufTy).Contents (Elt F) → (⟨S65536x32x2, .f32⟩ : BufTy).Contents (Elt F) → (⟨S65536x32x2, .f32⟩ : BufTy).Contents (Elt F)),
    reshape main_v53 main_v54 rfl shapeCasts_S65536x32x2_S65536x64,
    binary main_v48 main_v54 main_v55 ((fun a b => concatenate S65536x128 1 [⟨S65536x64, a⟩, ⟨S65536x64, b⟩] concatenates_S65536x64_S65536x64_S65536x128_d1) : (⟨S65536x64, .f32⟩ : BufTy).Contents (Elt F) → (⟨S65536x64, .f32⟩ : BufTy).Contents (Elt F) → (⟨S65536x128, .f32⟩ : BufTy).Contents (Elt F)) ]

/-- Level 6 (of the nodes 64 … 127): reads main_v55 and main_v12, writes main_v56 … main_v62. -/
abbrev L6 : List (HloOp τ sig (Elt F)) :=
  [ unary main_v55 main_v56 ((extractStridedSlice S65536x64 ![0, 64] · slices_S65536x128_S65536x64_0_64) : (⟨S65536x128, .f32⟩ : BufTy).Contents (Elt F) → (⟨S65536x64, .f32⟩ : BufTy).Contents (Elt F)),
    unary main_v56 main_v57 (broadcastInDim S65536x64x1 ![0, 1] bcast_S65536x64_S65536x64x1_0_1 : (⟨S65536x64, .f32⟩ : BufTy).Contents (Elt F) → (⟨S65536x64x1, .f32⟩ : BufTy).Contents (Elt F)),
    unary main_v12 main_v58 ((extractStridedSlice S65536x64x2 ![0, 64, 0] · slices_S65536x1024x2_S65536x64x2_0_64_0) : (⟨S65536x1024x2, .f32⟩ : BufTy).Contents (Elt F) → (⟨S65536x64x2, .f32⟩ : BufTy).Contents (Elt F)),
    unary main_v57 main_v59 (broadcastInDim S65536x64x2 ![0, 1, 2] bcast_S65536x64x1_S65536x64x2_0_1_2 : (⟨S65536x64x1, .f32⟩ : BufTy).Contents (Elt F) → (⟨S65536x64x2, .f32⟩ : BufTy).Contents (Elt F)),
    binary main_v59 main_v58 main_v60 (mulf : (⟨S65536x64x2, .f32⟩ : BufTy).Contents (Elt F) → (⟨S65536x64x2, .f32⟩ : BufTy).Contents (Elt F) → (⟨S65536x64x2, .f32⟩ : BufTy).Contents (Elt F)),
    reshape main_v60 main_v61 rfl shapeCasts_S65536x64x2_S65536x128,
    binary main_v55 main_v61 main_v62 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)) ]

/-- Level 7 (of the nodes 128 … 255): reads main_v62 and main_v12, writes main_v63 … main_v69. -/
abbrev L7 : List (HloOp τ sig (Elt F)) :=
  [ unary main_v62 main_v63 ((extractStridedSlice S65536x128 ![0, 128] · slices_S65536x256_S65536x128_0_128) : (⟨S65536x256, .f32⟩ : BufTy).Contents (Elt F) → (⟨S65536x128, .f32⟩ : BufTy).Contents (Elt F)),
    unary main_v63 main_v64 (broadcastInDim S65536x128x1 ![0, 1] bcast_S65536x128_S65536x128x1_0_1 : (⟨S65536x128, .f32⟩ : BufTy).Contents (Elt F) → (⟨S65536x128x1, .f32⟩ : BufTy).Contents (Elt F)),
    unary main_v12 main_v65 ((extractStridedSlice S65536x128x2 ![0, 128, 0] · slices_S65536x1024x2_S65536x128x2_0_128_0) : (⟨S65536x1024x2, .f32⟩ : BufTy).Contents (Elt F) → (⟨S65536x128x2, .f32⟩ : BufTy).Contents (Elt F)),
    unary main_v64 main_v66 (broadcastInDim S65536x128x2 ![0, 1, 2] bcast_S65536x128x1_S65536x128x2_0_1_2 : (⟨S65536x128x1, .f32⟩ : BufTy).Contents (Elt F) → (⟨S65536x128x2, .f32⟩ : BufTy).Contents (Elt F)),
    binary main_v66 main_v65 main_v67 (mulf : (⟨S65536x128x2, .f32⟩ : BufTy).Contents (Elt F) → (⟨S65536x128x2, .f32⟩ : BufTy).Contents (Elt F) → (⟨S65536x128x2, .f32⟩ : BufTy).Contents (Elt F)),
    reshape main_v67 main_v68 rfl shapeCasts_S65536x128x2_S65536x256,
    binary main_v62 main_v68 main_v69 ((fun a b => concatenate S65536x512 1 [⟨S65536x256, a⟩, ⟨S65536x256, b⟩] concatenates_S65536x256_S65536x256_S65536x512_d1) : (⟨S65536x256, .f32⟩ : BufTy).Contents (Elt F) → (⟨S65536x256, .f32⟩ : BufTy).Contents (Elt F) → (⟨S65536x512, .f32⟩ : BufTy).Contents (Elt F)) ]

/-- Level 8 (of the nodes 256 … 511): reads main_v69 and main_v12, writes main_v70 … main_v76. -/
abbrev L8 : List (HloOp τ sig (Elt F)) :=
  [ unary main_v69 main_v70 ((extractStridedSlice S65536x256 ![0, 256] · slices_S65536x512_S65536x256_0_256) : (⟨S65536x512, .f32⟩ : BufTy).Contents (Elt F) → (⟨S65536x256, .f32⟩ : BufTy).Contents (Elt F)),
    unary main_v70 main_v71 (broadcastInDim S65536x256x1 ![0, 1] bcast_S65536x256_S65536x256x1_0_1 : (⟨S65536x256, .f32⟩ : BufTy).Contents (Elt F) → (⟨S65536x256x1, .f32⟩ : BufTy).Contents (Elt F)),
    unary main_v12 main_v72 ((extractStridedSlice S65536x256x2 ![0, 256, 0] · slices_S65536x1024x2_S65536x256x2_0_256_0) : (⟨S65536x1024x2, .f32⟩ : BufTy).Contents (Elt F) → (⟨S65536x256x2, .f32⟩ : BufTy).Contents (Elt F)),
    unary main_v71 main_v73 (broadcastInDim S65536x256x2 ![0, 1, 2] bcast_S65536x256x1_S65536x256x2_0_1_2 : (⟨S65536x256x1, .f32⟩ : BufTy).Contents (Elt F) → (⟨S65536x256x2, .f32⟩ : BufTy).Contents (Elt F)),
    binary main_v73 main_v72 main_v74 (mulf : (⟨S65536x256x2, .f32⟩ : BufTy).Contents (Elt F) → (⟨S65536x256x2, .f32⟩ : BufTy).Contents (Elt F) → (⟨S65536x256x2, .f32⟩ : BufTy).Contents (Elt F)),
    reshape main_v74 main_v75 rfl shapeCasts_S65536x256x2_S65536x512,
    binary main_v69 main_v75 main_v76 ((fun a b => concatenate S65536x1024 1 [⟨S65536x512, a⟩, ⟨S65536x512, b⟩] concatenates_S65536x512_S65536x512_S65536x1024_d1) : (⟨S65536x512, .f32⟩ : BufTy).Contents (Elt F) → (⟨S65536x512, .f32⟩ : BufTy).Contents (Elt F) → (⟨S65536x1024, .f32⟩ : BufTy).Contents (Elt F)) ]

/-- Level 9 (of the nodes 512 … 1023): reads main_v76 and main_v12, writes main_v77 … main_v83. -/
abbrev L9 : List (HloOp τ sig (Elt F)) :=
  [ unary main_v76 main_v77 ((extractStridedSlice S65536x512 ![0, 512] · slices_S65536x1024_S65536x512_0_512) : (⟨S65536x1024, .f32⟩ : BufTy).Contents (Elt F) → (⟨S65536x512, .f32⟩ : BufTy).Contents (Elt F)),
    unary main_v77 main_v78 (broadcastInDim S65536x512x1 ![0, 1] bcast_S65536x512_S65536x512x1_0_1 : (⟨S65536x512, .f32⟩ : BufTy).Contents (Elt F) → (⟨S65536x512x1, .f32⟩ : BufTy).Contents (Elt F)),
    unary main_v12 main_v79 ((extractStridedSlice S65536x512x2 ![0, 512, 0] · slices_S65536x1024x2_S65536x512x2_0_512_0) : (⟨S65536x1024x2, .f32⟩ : BufTy).Contents (Elt F) → (⟨S65536x512x2, .f32⟩ : BufTy).Contents (Elt F)),
    unary main_v78 main_v80 (broadcastInDim S65536x512x2 ![0, 1, 2] bcast_S65536x512x1_S65536x512x2_0_1_2 : (⟨S65536x512x1, .f32⟩ : BufTy).Contents (Elt F) → (⟨S65536x512x2, .f32⟩ : BufTy).Contents (Elt F)),
    binary main_v80 main_v79 main_v81 (mulf : (⟨S65536x512x2, .f32⟩ : BufTy).Contents (Elt F) → (⟨S65536x512x2, .f32⟩ : BufTy).Contents (Elt F) → (⟨S65536x512x2, .f32⟩ : BufTy).Contents (Elt F)),
    reshape main_v81 main_v82 rfl shapeCasts_S65536x512x2_S65536x1024,
    binary main_v76 main_v82 main_v83 ((fun a b => concatenate S65536x2048 1 [⟨S65536x1024, a⟩, ⟨S65536x1024, b⟩] concatenates_S65536x1024_S65536x1024_S65536x2048_d1) : (⟨S65536x1024, .f32⟩ : BufTy).Contents (Elt F) → (⟨S65536x1024, .f32⟩ : BufTy).Contents (Elt F) → (⟨S65536x2048, .f32⟩ : BufTy).Contents (Elt F)) ]

/-- The tail: the last 5 operations (the scatter index, the updates, the scatter into main_v86). -/
abbrev tail5 : List (HloOp τ sig (Elt F)) :=
  [ nullary main_c (constantI S_ 32 0#32),
    unary main_c main_v84 (broadcastInDim S1 ![] bcast_S_S1 : (⟨S_, .i32⟩ : BufTy).Contents (Elt F) → (⟨S1, .i32⟩ : BufTy).Contents (Elt F)),
    nullary main_cst_3 (constant S_ .f32 0x3F800000#32),
    unary main_cst_3 main_v85 (broadcastInDim S65536 ![] bcast_S_S65536 : (⟨S_, .f32⟩ : BufTy).Contents (Elt F) → (⟨S65536, .f32⟩ : BufTy).Contents (Elt F)),
    ternary main_v83 main_v84 main_v85 main_v86 ((fun x i u => Host.scatter scatter_S65536x2048_S1_S65536_0_1_1_0 (fun _ b => b) x i u) : (⟨S65536x2048, .f32⟩ : BufTy).Contents (Elt F) → (⟨S1, .i32⟩ : BufTy).Contents (Elt F) → (⟨S65536, .f32⟩ : BufTy).Contents (Elt F) → (⟨S65536x2048, .f32⟩ : BufTy).Contents (Elt F)) ]

set_option maxRecDepth 8192 in
/-- The operation list is its stretches in order. -/
theorem ops_split : (ops : List (HloOp τ sig (Elt F)))
    = prelude ++ (L0 ++ (L1 ++ (L2 ++ (L3 ++ (L4 ++ (L5 ++ (L6 ++ (L7 ++ (L8 ++ (L9 ++ tail5)))))))))) := rfl

/-! ## Each stretch over arbitrary contents -/

set_option maxRecDepth 8192 in
/-- Level 0 writes, at main_v20, the level's term of the two arrays it reads. -/
theorem L0_out (W : Valuation τ sig (Elt F)) (mu : (Proc.devRef .tc main_v13 : DevRef τ sig).ty.Contents (Elt F))
    (dec : (Proc.devRef .tc main_v12 : DevRef τ sig).ty.Contents (Elt F)) (hmu : W (Proc.devRef .tc main_v13) = mu) (hdec : W (Proc.devRef .tc main_v12) = dec) :
    after L0 W (Proc.devRef .tc main_v20)
      = concatenate S65536x4 1 [⟨S65536x2, mu⟩, ⟨S65536x2, (shapeCast _ (mulf (broadcastInDim S65536x1x2 ![0, 1, 2] bcast_S65536x1x1_S65536x1x2_0_1_2 (broadcastInDim S65536x1x1 ![0, 1] bcast_S65536x1_S65536x1x1_0_1 (extractStridedSlice S65536x1 ![0, 1] mu slices_S65536x2_S65536x1_0_1))) (extractStridedSlice S65536x1x2 ![0, 1, 0] dec slices_S65536x1024x2_S65536x1x2_0_1_0)) shapeCasts_S65536x1x2_S65536x2)⟩] concatenates_S65536x2_S65536x2_S65536x4_d1 := by
  subst hmu hdec
  after_results <;> rfl

/-- Level 0 leaves the pairs main_v12 alone. -/
theorem L0_v12 (W : Valuation τ sig (Elt F)) : after L0 W (Proc.devRef .tc main_v12) = W (Proc.devRef .tc main_v12) := by
  after_results <;> rfl

set_option maxRecDepth 8192 in
/-- Level 1 writes, at main_v27, the level's term of the two arrays it reads. -/
theorem L1_out (W : Valuation τ sig (Elt F)) (mu : (Proc.devRef .tc main_v20 : DevRef τ sig).ty.Contents (Elt F))
    (dec : (Proc.devRef .tc main_v12 : DevRef τ sig).ty.Contents (Elt F)) (hmu : W (Proc.devRef .tc main_v20) = mu) (hdec : W (Proc.devRef .tc main_v12) = dec) :
    after L1 W (Proc.devRef .tc main_v27)
      = concatenate S65536x8 1 [⟨S65536x4, mu⟩, ⟨S65536x4, (shapeCast _ (mulf (broadcastInDim S65536x2x2 ![0, 1, 2] bcast_S65536x2x1_S65536x2x2_0_1_2 (broadcastInDim S65536x2x1 ![0, 1] bcast_S65536x2_S65536x2x1_0_1 (extractStridedSlice S65536x2 ![0, 2] mu slices_S65536x4_S65536x2_0_2))) (extractStridedSlice S65536x2x2 ![0, 2, 0] dec slices_S65536x1024x2_S65536x2x2_0_2_0)) shapeCasts_S65536x2x2_S65536x4)⟩] concatenates_S65536x4_S65536x4_S65536x8_d1 := by
  subst hmu hdec
  after_results <;> rfl

/-- Level 1 leaves the pairs main_v12 alone. -/
theorem L1_v12 (W : Valuation τ sig (Elt F)) : after L1 W (Proc.devRef .tc main_v12) = W (Proc.devRef .tc main_v12) := by
  after_results <;> rfl

set_option maxRecDepth 8192 in
/-- Level 2 writes, at main_v34, the level's term of the two arrays it reads. -/
theorem L2_out (W : Valuation τ sig (Elt F)) (mu : (Proc.devRef .tc main_v27 : DevRef τ sig).ty.Contents (Elt F))
    (dec : (Proc.devRef .tc main_v12 : DevRef τ sig).ty.Contents (Elt F)) (hmu : W (Proc.devRef .tc main_v27) = mu) (hdec : W (Proc.devRef .tc main_v12) = dec) :
    after L2 W (Proc.devRef .tc main_v34)
      = concatenate S65536x16 1 [⟨S65536x8, mu⟩, ⟨S65536x8, (shapeCast _ (mulf (broadcastInDim S65536x4x2 ![0, 1, 2] bcast_S65536x4x1_S65536x4x2_0_1_2 (broadcastInDim S65536x4x1 ![0, 1] bcast_S65536x4_S65536x4x1_0_1 (extractStridedSlice S65536x4 ![0, 4] mu slices_S65536x8_S65536x4_0_4))) (extractStridedSlice S65536x4x2 ![0, 4, 0] dec slices_S65536x1024x2_S65536x4x2_0_4_0)) shapeCasts_S65536x4x2_S65536x8)⟩] concatenates_S65536x8_S65536x8_S65536x16_d1 := by
  subst hmu hdec
  after_results <;> rfl

/-- Level 2 leaves the pairs main_v12 alone. -/
theorem L2_v12 (W : Valuation τ sig (Elt F)) : after L2 W (Proc.devRef .tc main_v12) = W (Proc.devRef .tc main_v12) := by
  after_results <;> rfl

set_option maxRecDepth 8192 in
/-- Level 3 writes, at main_v41, the level's term of the two arrays it reads. -/
theorem L3_out (W : Valuation τ sig (Elt F)) (mu : (Proc.devRef .tc main_v34 : DevRef τ sig).ty.Contents (Elt F))
    (dec : (Proc.devRef .tc main_v12 : DevRef τ sig).ty.Contents (Elt F)) (hmu : W (Proc.devRef .tc main_v34) = mu) (hdec : W (Proc.devRef .tc main_v12) = dec) :
    after L3 W (Proc.devRef .tc main_v41)
      = concatenate S65536x32 1 [⟨S65536x16, mu⟩, ⟨S65536x16, (shapeCast _ (mulf (broadcastInDim S65536x8x2 ![0, 1, 2] bcast_S65536x8x1_S65536x8x2_0_1_2 (broadcastInDim S65536x8x1 ![0, 1] bcast_S65536x8_S65536x8x1_0_1 (extractStridedSlice S65536x8 ![0, 8] mu slices_S65536x16_S65536x8_0_8))) (extractStridedSlice S65536x8x2 ![0, 8, 0] dec slices_S65536x1024x2_S65536x8x2_0_8_0)) shapeCasts_S65536x8x2_S65536x16)⟩] concatenates_S65536x16_S65536x16_S65536x32_d1 := by
  subst hmu hdec
  after_results <;> rfl

/-- Level 3 leaves the pairs main_v12 alone. -/
theorem L3_v12 (W : Valuation τ sig (Elt F)) : after L3 W (Proc.devRef .tc main_v12) = W (Proc.devRef .tc main_v12) := by
  after_results <;> rfl

set_option maxRecDepth 8192 in
/-- Level 4 writes, at main_v48, the level's term of the two arrays it reads. -/
theorem L4_out (W : Valuation τ sig (Elt F)) (mu : (Proc.devRef .tc main_v41 : DevRef τ sig).ty.Contents (Elt F))
    (dec : (Proc.devRef .tc main_v12 : DevRef τ sig).ty.Contents (Elt F)) (hmu : W (Proc.devRef .tc main_v41) = mu) (hdec : W (Proc.devRef .tc main_v12) = dec) :
    after L4 W (Proc.devRef .tc main_v48)
      = concatenate S65536x64 1 [⟨S65536x32, mu⟩, ⟨S65536x32, (shapeCast _ (mulf (broadcastInDim S65536x16x2 ![0, 1, 2] bcast_S65536x16x1_S65536x16x2_0_1_2 (broadcastInDim S65536x16x1 ![0, 1] bcast_S65536x16_S65536x16x1_0_1 (extractStridedSlice S65536x16 ![0, 16] mu slices_S65536x32_S65536x16_0_16))) (extractStridedSlice S65536x16x2 ![0, 16, 0] dec slices_S65536x1024x2_S65536x16x2_0_16_0)) shapeCasts_S65536x16x2_S65536x32)⟩] concatenates_S65536x32_S65536x32_S65536x64_d1 := by
  subst hmu hdec
  after_results <;> rfl

/-- Level 4 leaves the pairs main_v12 alone. -/
theorem L4_v12 (W : Valuation τ sig (Elt F)) : after L4 W (Proc.devRef .tc main_v12) = W (Proc.devRef .tc main_v12) := by
  after_results <;> rfl

set_option maxRecDepth 8192 in
/-- Level 5 writes, at main_v55, the level's term of the two arrays it reads. -/
theorem L5_out (W : Valuation τ sig (Elt F)) (mu : (Proc.devRef .tc main_v48 : DevRef τ sig).ty.Contents (Elt F))
    (dec : (Proc.devRef .tc main_v12 : DevRef τ sig).ty.Contents (Elt F)) (hmu : W (Proc.devRef .tc main_v48) = mu) (hdec : W (Proc.devRef .tc main_v12) = dec) :
    after L5 W (Proc.devRef .tc main_v55)
      = concatenate S65536x128 1 [⟨S65536x64, mu⟩, ⟨S65536x64, (shapeCast _ (mulf (broadcastInDim S65536x32x2 ![0, 1, 2] bcast_S65536x32x1_S65536x32x2_0_1_2 (broadcastInDim S65536x32x1 ![0, 1] bcast_S65536x32_S65536x32x1_0_1 (extractStridedSlice S65536x32 ![0, 32] mu slices_S65536x64_S65536x32_0_32))) (extractStridedSlice S65536x32x2 ![0, 32, 0] dec slices_S65536x1024x2_S65536x32x2_0_32_0)) shapeCasts_S65536x32x2_S65536x64)⟩] concatenates_S65536x64_S65536x64_S65536x128_d1 := by
  subst hmu hdec
  after_results <;> rfl

/-- Level 5 leaves the pairs main_v12 alone. -/
theorem L5_v12 (W : Valuation τ sig (Elt F)) : after L5 W (Proc.devRef .tc main_v12) = W (Proc.devRef .tc main_v12) := by
  after_results <;> rfl

set_option maxRecDepth 8192 in
/-- Level 6 writes, at main_v62, the level's term of the two arrays it reads. -/
theorem L6_out (W : Valuation τ sig (Elt F)) (mu : (Proc.devRef .tc main_v55 : DevRef τ sig).ty.Contents (Elt F))
    (dec : (Proc.devRef .tc main_v12 : DevRef τ sig).ty.Contents (Elt F)) (hmu : W (Proc.devRef .tc main_v55) = mu) (hdec : W (Proc.devRef .tc main_v12) = dec) :
    after L6 W (Proc.devRef .tc main_v62)
      = concatenate S65536x256 1 [⟨S65536x128, mu⟩, ⟨S65536x128, (shapeCast _ (mulf (broadcastInDim S65536x64x2 ![0, 1, 2] bcast_S65536x64x1_S65536x64x2_0_1_2 (broadcastInDim S65536x64x1 ![0, 1] bcast_S65536x64_S65536x64x1_0_1 (extractStridedSlice S65536x64 ![0, 64] mu slices_S65536x128_S65536x64_0_64))) (extractStridedSlice S65536x64x2 ![0, 64, 0] dec slices_S65536x1024x2_S65536x64x2_0_64_0)) shapeCasts_S65536x64x2_S65536x128)⟩] concatenates_S65536x128_S65536x128_S65536x256_d1 := by
  subst hmu hdec
  after_results <;> rfl

/-- Level 6 leaves the pairs main_v12 alone. -/
theorem L6_v12 (W : Valuation τ sig (Elt F)) : after L6 W (Proc.devRef .tc main_v12) = W (Proc.devRef .tc main_v12) := by
  after_results <;> rfl

set_option maxRecDepth 8192 in
/-- Level 7 writes, at main_v69, the level's term of the two arrays it reads. -/
theorem L7_out (W : Valuation τ sig (Elt F)) (mu : (Proc.devRef .tc main_v62 : DevRef τ sig).ty.Contents (Elt F))
    (dec : (Proc.devRef .tc main_v12 : DevRef τ sig).ty.Contents (Elt F)) (hmu : W (Proc.devRef .tc main_v62) = mu) (hdec : W (Proc.devRef .tc main_v12) = dec) :
    after L7 W (Proc.devRef .tc main_v69)
      = concatenate S65536x512 1 [⟨S65536x256, mu⟩, ⟨S65536x256, (shapeCast _ (mulf (broadcastInDim S65536x128x2 ![0, 1, 2] bcast_S65536x128x1_S65536x128x2_0_1_2 (broadcastInDim S65536x128x1 ![0, 1] bcast_S65536x128_S65536x128x1_0_1 (extractStridedSlice S65536x128 ![0, 128] mu slices_S65536x256_S65536x128_0_128))) (extractStridedSlice S65536x128x2 ![0, 128, 0] dec slices_S65536x1024x2_S65536x128x2_0_128_0)) shapeCasts_S65536x128x2_S65536x256)⟩] concatenates_S65536x256_S65536x256_S65536x512_d1 := by
  subst hmu hdec
  after_results <;> rfl

/-- Level 7 leaves the pairs main_v12 alone. -/
theorem L7_v12 (W : Valuation τ sig (Elt F)) : after L7 W (Proc.devRef .tc main_v12) = W (Proc.devRef .tc main_v12) := by
  after_results <;> rfl

set_option maxRecDepth 8192 in
/-- Level 8 writes, at main_v76, the level's term of the two arrays it reads. -/
theorem L8_out (W : Valuation τ sig (Elt F)) (mu : (Proc.devRef .tc main_v69 : DevRef τ sig).ty.Contents (Elt F))
    (dec : (Proc.devRef .tc main_v12 : DevRef τ sig).ty.Contents (Elt F)) (hmu : W (Proc.devRef .tc main_v69) = mu) (hdec : W (Proc.devRef .tc main_v12) = dec) :
    after L8 W (Proc.devRef .tc main_v76)
      = concatenate S65536x1024 1 [⟨S65536x512, mu⟩, ⟨S65536x512, (shapeCast _ (mulf (broadcastInDim S65536x256x2 ![0, 1, 2] bcast_S65536x256x1_S65536x256x2_0_1_2 (broadcastInDim S65536x256x1 ![0, 1] bcast_S65536x256_S65536x256x1_0_1 (extractStridedSlice S65536x256 ![0, 256] mu slices_S65536x512_S65536x256_0_256))) (extractStridedSlice S65536x256x2 ![0, 256, 0] dec slices_S65536x1024x2_S65536x256x2_0_256_0)) shapeCasts_S65536x256x2_S65536x512)⟩] concatenates_S65536x512_S65536x512_S65536x1024_d1 := by
  subst hmu hdec
  after_results <;> rfl

/-- Level 8 leaves the pairs main_v12 alone. -/
theorem L8_v12 (W : Valuation τ sig (Elt F)) : after L8 W (Proc.devRef .tc main_v12) = W (Proc.devRef .tc main_v12) := by
  after_results <;> rfl

set_option maxRecDepth 8192 in
/-- Level 9 writes, at main_v83, the level's term of the two arrays it reads. -/
theorem L9_out (W : Valuation τ sig (Elt F)) (mu : (Proc.devRef .tc main_v76 : DevRef τ sig).ty.Contents (Elt F))
    (dec : (Proc.devRef .tc main_v12 : DevRef τ sig).ty.Contents (Elt F)) (hmu : W (Proc.devRef .tc main_v76) = mu) (hdec : W (Proc.devRef .tc main_v12) = dec) :
    after L9 W (Proc.devRef .tc main_v83)
      = concatenate S65536x2048 1 [⟨S65536x1024, mu⟩, ⟨S65536x1024, (shapeCast _ (mulf (broadcastInDim S65536x512x2 ![0, 1, 2] bcast_S65536x512x1_S65536x512x2_0_1_2 (broadcastInDim S65536x512x1 ![0, 1] bcast_S65536x512_S65536x512x1_0_1 (extractStridedSlice S65536x512 ![0, 512] mu slices_S65536x1024_S65536x512_0_512))) (extractStridedSlice S65536x512x2 ![0, 512, 0] dec slices_S65536x1024x2_S65536x512x2_0_512_0)) shapeCasts_S65536x512x2_S65536x1024)⟩] concatenates_S65536x1024_S65536x1024_S65536x2048_d1 := by
  subst hmu hdec
  after_results <;> rfl

/-- Level 9 leaves the pairs main_v12 alone. -/
theorem L9_v12 (W : Valuation τ sig (Elt F)) : after L9 W (Proc.devRef .tc main_v12) = W (Proc.devRef .tc main_v12) := by
  after_results <;> rfl

set_option maxRecDepth 8192 in
/-- The tail writes, at main_v86, the scatter of the ones into column 0 of the array it reads at main_v83. -/
theorem tail_out (W : Valuation τ sig (Elt F)) (x : (Proc.devRef .tc main_v83 : DevRef τ sig).ty.Contents (Elt F)) (hx : W (Proc.devRef .tc main_v83) = x) :
    after tail5 W (Proc.devRef .tc main_v86)
      = Host.scatter scatter_S65536x2048_S1_S65536_0_1_1_0 (fun _ b => b) x (broadcastInDim S1 ![] bcast_S_S1 (constantI S_ 32 0#32)) (broadcastInDim S65536 ![] bcast_S_S65536 (constant S_ .f32 0x3F800000#32)) := by
  subst hx
  after_results <;> rfl

/-! ## The stretches joined: the buffers' contents after the prelude and after each level -/

/-- The contents after the prelude. -/
def A0 (V0 : Valuation τ sig (Elt F)) : Valuation τ sig (Elt F) := after prelude V0

set_option maxRecDepth 8192 in
/-- After the prelude main_v13 holds the ones. -/
theorem A0_out (V0 : Valuation τ sig (Elt F)) : A0 V0 (Proc.devRef .tc main_v13) = res_main_v13 V0 := by
  unfold A0 res_main_v13
  after_results <;> rfl

set_option maxRecDepth 8192 in
/-- After the prelude main_v12 holds the pairs. -/
theorem A0_v12 (V0 : Valuation τ sig (Elt F)) : A0 V0 (Proc.devRef .tc main_v12) = res_main_v12 V0 := by
  unfold A0 res_main_v12 res_main_v9
  after_results <;> rfl

/-- The contents after level 0. -/
def A1 (V0 : Valuation τ sig (Elt F)) : Valuation τ sig (Elt F) := after L0 (A0 V0)

/-- After level 0 main_v20 holds its named term. -/
theorem A1_out (V0 : Valuation τ sig (Elt F)) : A1 V0 (Proc.devRef .tc main_v20)
    = res_main_v20 V0 :=
  L0_out (A0 V0) _ _ (A0_out V0) (A0_v12 V0)

/-- After level 0 main_v12 still holds the pairs. -/
theorem A1_v12 (V0 : Valuation τ sig (Elt F)) : A1 V0 (Proc.devRef .tc main_v12) = res_main_v12 V0 :=
  (L0_v12 (A0 V0)).trans (A0_v12 V0)

/-- The contents after level 1. -/
def A2 (V0 : Valuation τ sig (Elt F)) : Valuation τ sig (Elt F) := after L1 (A1 V0)

/-- After level 1 main_v27 holds its named term. -/
theorem A2_out (V0 : Valuation τ sig (Elt F)) : A2 V0 (Proc.devRef .tc main_v27)
    = res_main_v27 V0 :=
  L1_out (A1 V0) _ _ (A1_out V0) (A1_v12 V0)

/-- After level 1 main_v12 still holds the pairs. -/
theorem A2_v12 (V0 : Valuation τ sig (Elt F)) : A2 V0 (Proc.devRef .tc main_v12) = res_main_v12 V0 :=
  (L1_v12 (A1 V0)).trans (A1_v12 V0)

/-- The contents after level 2. -/
def A3 (V0 : Valuation τ sig (Elt F)) : Valuation τ sig (Elt F) := after L2 (A2 V0)

/-- After level 2 main_v34 holds its named term. -/
theorem A3_out (V0 : Valuation τ sig (Elt F)) : A3 V0 (Proc.devRef .tc main_v34)
    = res_main_v34 V0 :=
  L2_out (A2 V0) _ _ (A2_out V0) (A2_v12 V0)

/-- After level 2 main_v12 still holds the pairs. -/
theorem A3_v12 (V0 : Valuation τ sig (Elt F)) : A3 V0 (Proc.devRef .tc main_v12) = res_main_v12 V0 :=
  (L2_v12 (A2 V0)).trans (A2_v12 V0)

/-- The contents after level 3. -/
def A4 (V0 : Valuation τ sig (Elt F)) : Valuation τ sig (Elt F) := after L3 (A3 V0)

/-- After level 3 main_v41 holds its named term. -/
theorem A4_out (V0 : Valuation τ sig (Elt F)) : A4 V0 (Proc.devRef .tc main_v41)
    = res_main_v41 V0 :=
  L3_out (A3 V0) _ _ (A3_out V0) (A3_v12 V0)

/-- After level 3 main_v12 still holds the pairs. -/
theorem A4_v12 (V0 : Valuation τ sig (Elt F)) : A4 V0 (Proc.devRef .tc main_v12) = res_main_v12 V0 :=
  (L3_v12 (A3 V0)).trans (A3_v12 V0)

/-- The contents after level 4. -/
def A5 (V0 : Valuation τ sig (Elt F)) : Valuation τ sig (Elt F) := after L4 (A4 V0)

/-- After level 4 main_v48 holds its named term. -/
theorem A5_out (V0 : Valuation τ sig (Elt F)) : A5 V0 (Proc.devRef .tc main_v48)
    = res_main_v48 V0 :=
  L4_out (A4 V0) _ _ (A4_out V0) (A4_v12 V0)

/-- After level 4 main_v12 still holds the pairs. -/
theorem A5_v12 (V0 : Valuation τ sig (Elt F)) : A5 V0 (Proc.devRef .tc main_v12) = res_main_v12 V0 :=
  (L4_v12 (A4 V0)).trans (A4_v12 V0)

/-- The contents after level 5. -/
def A6 (V0 : Valuation τ sig (Elt F)) : Valuation τ sig (Elt F) := after L5 (A5 V0)

/-- After level 5 main_v55 holds its named term. -/
theorem A6_out (V0 : Valuation τ sig (Elt F)) : A6 V0 (Proc.devRef .tc main_v55)
    = res_main_v55 V0 :=
  L5_out (A5 V0) _ _ (A5_out V0) (A5_v12 V0)

/-- After level 5 main_v12 still holds the pairs. -/
theorem A6_v12 (V0 : Valuation τ sig (Elt F)) : A6 V0 (Proc.devRef .tc main_v12) = res_main_v12 V0 :=
  (L5_v12 (A5 V0)).trans (A5_v12 V0)

/-- The contents after level 6. -/
def A7 (V0 : Valuation τ sig (Elt F)) : Valuation τ sig (Elt F) := after L6 (A6 V0)

/-- After level 6 main_v62 holds its named term. -/
theorem A7_out (V0 : Valuation τ sig (Elt F)) : A7 V0 (Proc.devRef .tc main_v62)
    = res_main_v62 V0 :=
  L6_out (A6 V0) _ _ (A6_out V0) (A6_v12 V0)

/-- After level 6 main_v12 still holds the pairs. -/
theorem A7_v12 (V0 : Valuation τ sig (Elt F)) : A7 V0 (Proc.devRef .tc main_v12) = res_main_v12 V0 :=
  (L6_v12 (A6 V0)).trans (A6_v12 V0)

/-- The contents after level 7. -/
def A8 (V0 : Valuation τ sig (Elt F)) : Valuation τ sig (Elt F) := after L7 (A7 V0)

/-- After level 7 main_v69 holds its named term. -/
theorem A8_out (V0 : Valuation τ sig (Elt F)) : A8 V0 (Proc.devRef .tc main_v69)
    = res_main_v69 V0 :=
  L7_out (A7 V0) _ _ (A7_out V0) (A7_v12 V0)

/-- After level 7 main_v12 still holds the pairs. -/
theorem A8_v12 (V0 : Valuation τ sig (Elt F)) : A8 V0 (Proc.devRef .tc main_v12) = res_main_v12 V0 :=
  (L7_v12 (A7 V0)).trans (A7_v12 V0)

/-- The contents after level 8. -/
def A9 (V0 : Valuation τ sig (Elt F)) : Valuation τ sig (Elt F) := after L8 (A8 V0)

/-- After level 8 main_v76 holds its named term. -/
theorem A9_out (V0 : Valuation τ sig (Elt F)) : A9 V0 (Proc.devRef .tc main_v76)
    = res_main_v76 V0 :=
  L8_out (A8 V0) _ _ (A8_out V0) (A8_v12 V0)

/-- After level 8 main_v12 still holds the pairs. -/
theorem A9_v12 (V0 : Valuation τ sig (Elt F)) : A9 V0 (Proc.devRef .tc main_v12) = res_main_v12 V0 :=
  (L8_v12 (A8 V0)).trans (A8_v12 V0)

/-- The contents after level 9. -/
def A10 (V0 : Valuation τ sig (Elt F)) : Valuation τ sig (Elt F) := after L9 (A9 V0)

/-- After level 9 main_v83 holds the last level's term of the named arrays. -/
theorem A10_out (V0 : Valuation τ sig (Elt F)) : A10 V0 (Proc.devRef .tc main_v83)
    = concatenate S65536x2048 1 [⟨S65536x1024, (res_main_v76 V0)⟩, ⟨S65536x1024, (shapeCast _ (mulf (broadcastInDim S65536x512x2 ![0, 1, 2] bcast_S65536x512x1_S65536x512x2_0_1_2 (broadcastInDim S65536x512x1 ![0, 1] bcast_S65536x512_S65536x512x1_0_1 (extractStridedSlice S65536x512 ![0, 512] (res_main_v76 V0) slices_S65536x1024_S65536x512_0_512))) (extractStridedSlice S65536x512x2 ![0, 512, 0] (res_main_v12 V0) slices_S65536x1024x2_S65536x512x2_0_512_0)) shapeCasts_S65536x512x2_S65536x1024)⟩] concatenates_S65536x1024_S65536x1024_S65536x2048_d1 :=
  L9_out (A9 V0) _ _ (A9_out V0) (A9_v12 V0)

/-- After level 9 main_v12 still holds the pairs. -/
theorem A10_v12 (V0 : Valuation τ sig (Elt F)) : A10 V0 (Proc.devRef .tc main_v12) = res_main_v12 V0 :=
  (L9_v12 (A9 V0)).trans (A9_v12 V0)

/-- The whole line is the tail run from the contents after the last level. -/
theorem ops_after (V0 : Valuation τ sig (Elt F)) : after ops V0 = after tail5 (A10 V0) := by
  rw [ops_split]
  simp only [StableHlo.after_append]
  rfl

/-- The result buffer after the whole line: the generated run's term. -/
theorem out_eq (V0 : Valuation τ sig (Elt F)) : after ops V0 (Proc.devRef .tc main_v86)
    = Host.scatter scatter_S65536x2048_S1_S65536_0_1_1_0 (fun _ b => b) (concatenate S65536x2048 1 [⟨S65536x1024, (res_main_v76 V0)⟩, ⟨S65536x1024, (shapeCast _ (mulf (broadcastInDim S65536x512x2 ![0, 1, 2] bcast_S65536x512x1_S65536x512x2_0_1_2 (broadcastInDim S65536x512x1 ![0, 1] bcast_S65536x512_S65536x512x1_0_1 (extractStridedSlice S65536x512 ![0, 512] (res_main_v76 V0) slices_S65536x1024_S65536x512_0_512))) (extractStridedSlice S65536x512x2 ![0, 512, 0] (res_main_v12 V0) slices_S65536x1024x2_S65536x512x2_0_512_0)) shapeCasts_S65536x512x2_S65536x1024)⟩] concatenates_S65536x1024_S65536x1024_S65536x2048_d1) (broadcastInDim S1 ![] bcast_S_S1 (constantI S_ 32 0#32)) (broadcastInDim S65536 ![] bcast_S_S65536 (constant S_ .f32 0x3F800000#32)) := by
  rw [ops_after]
  exact tail_out (A10 V0) _ (A10_out V0)

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = Host.scatter scatter_S65536x2048_S1_S65536_0_1_1_0 (fun _ b => b) (concatenate S65536x2048 1 [⟨S65536x1024, (res_main_v76 (launchContents m c))⟩, ⟨S65536x1024, (shapeCast _ (mulf (broadcastInDim S65536x512x2 ![0, 1, 2] bcast_S65536x512x1_S65536x512x2_0_1_2 (broadcastInDim S65536x512x1 ![0, 1] bcast_S65536x512_S65536x512x1_0_1 (extractStridedSlice S65536x512 ![0, 512] (res_main_v76 (launchContents m c)) slices_S65536x1024_S65536x512_0_512))) (extractStridedSlice S65536x512x2 ![0, 512, 0] (res_main_v12 (launchContents m c)) slices_S65536x1024x2_S65536x512x2_0_512_0)) shapeCasts_S65536x512x2_S65536x1024)⟩] concatenates_S65536x1024_S65536x1024_S65536x2048_d1) (broadcastInDim S1 ![] bcast_S_S1 (constantI S_ 32 0#32)) (broadcastInDim S65536 ![] bcast_S_S65536 (constant S_ .f32 0x3F800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v86).trans (out_eq (launchContents m c)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RunH

end
-- ==== Proof.HostLevel.lean ====
/-
  One level of the tree as the reference lays it out. The reference keeps ONE array holding the probabilities of all
  the nodes found so far (columns 0 … 2m − 1); a level takes the newest m of them, multiplies each by the pair
  (decision, 1 − decision) of its node, flattens the pairs and appends them: columns 2m … 4m − 1.
-/
import proofs.«170250_j83193516523595_1_alg».proof.Proof.LevelTree

noncomputable section

namespace Cert.Tree

open Idealize.ShloMosaic Idealize.ShloMosaic.ValueIdx

/-- A matrix [B, m] broadcast to [B, m, 1] and then to [B, m, 2] reads (r, j) at (r, j, s). -/
theorem pairBroadcast_apply {α : Type} {B m : Nat} (X : (⟨2, ![B, m]⟩ : Shape).Idx → α)
    (hb1 : (⟨2, ![B, m]⟩ : Shape).BroadcastsInDim ⟨3, ![B, m, 1]⟩ (![0, 1] : Fin 2 → Fin 3))
    (hb2 : (⟨3, ![B, m, 1]⟩ : Shape).BroadcastsInDim ⟨3, ![B, m, 2]⟩ (![0, 1, 2] : Fin 3 → Fin 3))
    (r : Fin B) (j : Fin m) (s : Fin 2) :
    broadcastInDim ⟨3, ![B, m, 2]⟩ ![0, 1, 2] hb2 (broadcastInDim ⟨3, ![B, m, 1]⟩ ![0, 1] hb1 X) (ix3 r j s) = X (ix2 r j) := by
  have hr := r.isLt
  have hj := j.isLt
  rw [broadcastInDim_apply _ hb2 _ (ix3 r j s) (ix3 r j 0) (fun a => by
      match a with
      | ⟨0, _⟩ => show r.val = if B = 1 then 0 else r.val; split <;> omega
      | ⟨1, _⟩ => show j.val = if m = 1 then 0 else j.val; split <;> omega
      | ⟨2, _⟩ => rfl),
    broadcastInDim_apply _ hb1 _ (ix3 r j 0) (ix2 r j) (fun a => by
      match a with
      | ⟨0, _⟩ => show r.val = if B = 1 then 0 else r.val; split <;> omega
      | ⟨1, _⟩ => show j.val = if m = 1 then 0 else j.val; split <;> omega)]

/-- One level of the reference, from the tree's values to the tree's values: if the array [B, 2m] holds the
    probabilities of the nodes 0 … 2m − 1 and `dec` every node's pair (decision, 1 − decision), the array [B, 4m] the
    level makes holds the probabilities of the nodes 0 … 4m − 1. -/
theorem host_level_tree {B m m2 m4 N : Nat} (hm2 : m2 = 2 * m) (hm4 : m4 = 2 * m2) (hm : 1 ≤ m)
    (mu : FVec Ideal ⟨2, ![B, m2]⟩ .f32) (dec : FVec Ideal ⟨3, ![B, N, 2]⟩ .f32)
    (hs1 : (⟨2, ![B, m2]⟩ : Shape).Slices ![0, m] ⟨2, ![B, m]⟩)
    (hb1 : (⟨2, ![B, m]⟩ : Shape).BroadcastsInDim ⟨3, ![B, m, 1]⟩ (![0, 1] : Fin 2 → Fin 3))
    (hs2 : (⟨3, ![B, N, 2]⟩ : Shape).Slices ![0, m, 0] ⟨3, ![B, m, 2]⟩)
    (hb2 : (⟨3, ![B, m, 1]⟩ : Shape).BroadcastsInDim ⟨3, ![B, m, 2]⟩ (![0, 1, 2] : Fin 3 → Fin 3))
    (hr : (⟨3, ![B, m, 2]⟩ : Shape).ShapeCasts ⟨2, ![B, m2]⟩)
    (hc : Shape.Concatenates [(⟨2, ![B, m2]⟩ : Shape), ⟨2, ![B, m2]⟩] ⟨2, ![B, m4]⟩ 1)
    (x : Fin B → EReal) (w b : Nat → EReal)
    (hdec : ∀ (r : Fin B) (n : Fin N) (s : Fin 2),
      dec (ix3 r n s) = if s.val = 0 then decide (x r) w b n.val else 1 - decide (x r) w b n.val)
    (hmu : ∀ (r : Fin B) (k : Fin m2), mu (ix2 r k) = tree (x r) w b k.val)
    (r : Fin B) (k : Fin m4) :
    concatenate ⟨2, ![B, m4]⟩ 1
        [⟨⟨2, ![B, m2]⟩, mu⟩,
         ⟨⟨2, ![B, m2]⟩, shapeCast ⟨2, ![B, m2]⟩
            (mulf (broadcastInDim ⟨3, ![B, m, 2]⟩ ![0, 1, 2] hb2
                    (broadcastInDim ⟨3, ![B, m, 1]⟩ ![0, 1] hb1 (extractStridedSlice ⟨2, ![B, m]⟩ ![0, m] mu hs1)))
                  (extractStridedSlice ⟨3, ![B, m, 2]⟩ ![0, m, 0] dec hs2)) hr⟩] hc (ix2 r k)
      = tree (x r) w b k.val := by
  have hkl := k.isLt
  by_cases hlt : k.val < m2
  · -- an old column: the array as it was
    rw [concatenate_pair_apply_left 1 _ _ hc (ix2 r k) rfl (ix2 r ⟨k.val, hlt⟩) (fun a => by
      match a with
      | ⟨0, _⟩ => rfl
      | ⟨1, _⟩ => rfl), hmu]
  · -- a new column k = 2m + k': child k' % 2 of node m + k' / 2
    have hk' : k.val - m2 < m2 := by omega
    have hj : (k.val - m2) / 2 < m := by omega
    have hs : (k.val - m2) % 2 < 2 := Nat.mod_lt _ (by omega)
    have hN : m + (k.val - m2) / 2 < N := by have := hs2.2 1; simp at this; omega
    have hM : m + (k.val - m2) / 2 < m2 := by omega
    rw [concatenate_pair_apply_right 1 _ _ hc (ix2 r k) rfl rfl (ix2 r ⟨k.val - m2, hk'⟩) (fun a ha => by
        match a with
        | ⟨0, _⟩ => rfl
        | ⟨1, _⟩ => exact absurd rfl ha) (by show (k.val - m2) + m2 = k.val; omega),
      flattenPairs_apply hm2 _ hr r ⟨k.val - m2, hk'⟩ ⟨(k.val - m2) / 2, hj⟩ ⟨(k.val - m2) % 2, hs⟩
        (by show k.val - m2 = 2 * ((k.val - m2) / 2) + (k.val - m2) % 2; omega),
      mulf_apply, pairBroadcast_apply _ hb1 hb2,
      slice2_axis1_apply m mu hs1 r ⟨(k.val - m2) / 2, hj⟩ ⟨m + (k.val - m2) / 2, hM⟩ rfl,
      slice3_axis1_apply m dec hs2 r ⟨(k.val - m2) / 2, hj⟩ ⟨(k.val - m2) % 2, hs⟩ ⟨m + (k.val - m2) / 2, hN⟩ rfl,
      hmu, hdec]
    have e : k.val = 2 * m + (k.val - m2) := by omega
    conv_rhs => rw [e, tree_child _ _ _ m (k.val - m2) hm]

end Cert.Tree

end
-- ==== Proof.LibScatterSet.lean ====
import Idealize.ShloMosaic.PureOps.ShapeOps
import Mathlib.Logic.Equiv.Defs

/-!
# A scatter whose combiner keeps the update

The host scatter is a left fold over the update indices in row-major order. Each step either
rewrites one element of the result (the one the update index lands on) or leaves the result
alone (the update index lands outside the operand). When the combiner returns its second
argument, the value found at a result index `i` after the whole fold is decided by the LAST
update index landing on `i`. Two consequences are proved here: if exactly one update index
lands on `i`, the result there is that update; if none does, the result there is the operand's
element.
-/

namespace Cert.Lib

open Idealize.ShloMosaic

section Fold

variable {ι σ α : Type}

/-- A left fold whose every step leaves an observed quantity `v` of the state alone: the
    observed quantity at the end is the one at the start. Here `P n` says "step `n` touches the
    observed quantity"; the hypothesis is that no element of the list does. -/
theorem foldl_obs_untouched (stp : σ → ι → σ) (v : σ → α) (P : ι → Prop)
    (hmiss : ∀ r n, ¬ P n → v (stp r n) = v r) :
    ∀ (L : List ι) (x : σ), (∀ n ∈ L, ¬ P n) → v (L.foldl stp x) = v x := by
  intro L
  induction L with
  | nil => intro x _; rfl
  | cons a L ih =>
    intro x h
    rw [List.foldl_cons, ih (stp x a) (fun n hn => h n (List.mem_cons_of_mem a hn)),
      hmiss x a (h a List.mem_cons_self)]

/-- A left fold over a list without repetitions in which exactly one element `n` touches the
    observed quantity `v`, setting it to `val n` whatever the state was: the observed quantity at
    the end is `val n`. Before `n` the state is arbitrary; at `n` the quantity becomes `val n`;
    after `n` nothing touches it, because any later element that did would equal `n`, and `n`
    does not occur twice. -/
theorem foldl_obs_set_once (stp : σ → ι → σ) (v : σ → α) (P : ι → Prop) (val : ι → α)
    (hhit : ∀ r n, P n → v (stp r n) = val n)
    (hmiss : ∀ r n, ¬ P n → v (stp r n) = v r) (n : ι) (hPn : P n) :
    ∀ (L : List ι) (x : σ), L.Nodup → n ∈ L → (∀ n' ∈ L, P n' → n' = n) →
      v (L.foldl stp x) = val n := by
  intro L
  induction L with
  | nil => intro x _ hmem; exact absurd hmem List.not_mem_nil
  | cons a L ih =>
    intro x hnd hmem huniq
    rw [List.foldl_cons]
    have hnd' := List.nodup_cons.1 hnd
    by_cases han : a = n
    · -- the head is the one touching element: the tail leaves the quantity alone
      subst han
      have htail : ∀ m ∈ L, ¬ P m := by
        intro m hm hPm
        have : m = a := huniq m (List.mem_cons_of_mem a hm) hPm
        exact hnd'.1 (this ▸ hm)
      rw [foldl_obs_untouched stp v P hmiss L (stp x a) htail, hhit x a hPn]
    · -- the touching element is in the tail
      have hmem' : n ∈ L := by
        rcases List.mem_cons.1 hmem with h | h
        · exact absurd h.symm han
        · exact h
      exact ih (stp x a) hnd'.2 hmem' (fun n' hn' => huniq n' (List.mem_cons_of_mem a hn'))

end Fold

section Scatter

variable {α : Type} {s si u : Shape} {w : Nat}

/-- One step of the scatter with the update-keeping combiner, read at a result index `i` the
    update index lands on: the update's element. -/
private theorem step_hit (d : ScatterDims s si u) (idx : IVec si w) (upd : u.Idx → α) (i : s.Idx)
    (r : s.Idx → α) (m : Fin u.numel) (h : d.resultIdx? (u.rowMajor.symm m) idx = some i) :
    (match d.resultIdx? (u.rowMajor.symm m) idx with
      | some j => fun i' => if i' = j then (fun (_ b : α) => b) (r j) (upd (u.rowMajor.symm m)) else r i'
      | none => r) i = upd (u.rowMajor.symm m) := by
  rw [h]
  exact if_pos rfl

/-- One step of the scatter, read at a result index `i` the update index does not land on: the
    element that was there. -/
private theorem step_miss (d : ScatterDims s si u) (idx : IVec si w) (upd : u.Idx → α) (i : s.Idx)
    (r : s.Idx → α) (m : Fin u.numel) (h : d.resultIdx? (u.rowMajor.symm m) idx ≠ some i) :
    (match d.resultIdx? (u.rowMajor.symm m) idx with
      | some j => fun i' => if i' = j then (fun (_ b : α) => b) (r j) (upd (u.rowMajor.symm m)) else r i'
      | none => r) i = r i := by
  generalize d.resultIdx? (u.rowMajor.symm m) idx = o at h
  cases o with
  | none => rfl
  | some j =>
    have hij : i ≠ j := fun e => h (by rw [e])
    exact if_neg hij

/-- A scatter whose combiner keeps the update, at a result index `i` on which exactly one
    update index `n` lands (`n` lands on `i`, and every update index landing on `i` is `n`): the
    result's element there is the update's element at `n`. -/
theorem scatter_set_hit (d : ScatterDims s si u) (x : s.Idx → α) (idx : IVec si w) (upd : u.Idx → α)
    (i : s.Idx) (n : u.Idx) (hn : d.resultIdx? n idx = some i)
    (huniq : ∀ n' : u.Idx, d.resultIdx? n' idx = some i → n' = n) :
    Host.scatter d (fun _ b => b) x idx upd i = upd n := by
  unfold Host.scatter
  have key := foldl_obs_set_once
    (stp := fun (r : s.Idx → α) (m : Fin u.numel) =>
      match d.resultIdx? (u.rowMajor.symm m) idx with
      | some j => fun i' => if i' = j then (fun (_ b : α) => b) (r j) (upd (u.rowMajor.symm m)) else r i'
      | none => r)
    (v := fun r => r i)
    (P := fun m => d.resultIdx? (u.rowMajor.symm m) idx = some i)
    (val := fun m => upd (u.rowMajor.symm m))
    (fun r m h => step_hit d idx upd i r m h)
    (fun r m h => step_miss d idx upd i r m h)
    (u.rowMajor n) (by show d.resultIdx? (u.rowMajor.symm (u.rowMajor n)) idx = some i
                       rw [Equiv.symm_apply_apply]; exact hn)
    (List.finRange u.numel) x (List.nodup_finRange _) (List.mem_finRange _)
    (fun m _ hm => by
      have := huniq (u.rowMajor.symm m) hm
      exact (Equiv.symm_apply_eq _).1 this)
  simp only [Equiv.symm_apply_apply] at key
  exact key

/-- A scatter whose combiner keeps the update, at a result index `i` on which no update index
    lands: the result's element there is the operand's. -/
theorem scatter_set_miss (d : ScatterDims s si u) (x : s.Idx → α) (idx : IVec si w) (upd : u.Idx → α)
    (i : s.Idx) (hmiss : ∀ n : u.Idx, d.resultIdx? n idx ≠ some i) :
    Host.scatter d (fun _ b => b) x idx upd i = x i := by
  unfold Host.scatter
  exact foldl_obs_untouched
    (stp := fun (r : s.Idx → α) (m : Fin u.numel) =>
      match d.resultIdx? (u.rowMajor.symm m) idx with
      | some j => fun i' => if i' = j then (fun (_ b : α) => b) (r j) (upd (u.rowMajor.symm m)) else r i'
      | none => r)
    (v := fun r => r i)
    (P := fun m => d.resultIdx? (u.rowMajor.symm m) idx = some i)
    (fun r m h => step_miss d idx upd i r m h)
    (List.finRange u.numel) x (fun m _ => hmiss (u.rowMajor.symm m))

end Scatter

end Cert.Lib
-- ==== Proof.RefValue.lean ====
/-
  The reference's result is the tree: its run's term, read at an index, is the probability of arriving at the column's node.
  The reference computes every node's decision as 1 / (1 + e^(-(x·W + b))), which is the logistic function; keeps one
  array of the probabilities found so far and appends one level at a time; and at the end sets column 0 to 1, which it
  already holds.
-/
import proofs.«170250_j83193516523595_1_alg».proof.Proof.RefOps
import proofs.«170250_j83193516523595_1_alg».proof.Proof.RefRun
import proofs.«170250_j83193516523595_1_alg».proof.Proof.HostLevel
import proofs.«170250_j83193516523595_1_alg».proof.Proof.Spec
import proofs.«170250_j83193516523595_1_alg».proof.Proof.LibScatterSet
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Value Cert.Tree
open Idealize.ShloMosaic Idealize.ShloMosaic.TcCoe Idealize.SL.Sem Idealize.ShloMosaic.StableHlo Idealize.ShloMosaic.ValueIdx

/-! ## Operations of the reference read at an index, at any extents -/

/-- The host's exponential at an index is the extended reals' exponential of the element. -/
theorem hostExp_apply {s : Shape} {φ : FTy} (a : FVec Ideal s φ) (i : s.Idx) : Host.exp a i = Ideal.exp (a i) := rfl

/-- The host's negation at an index is the negation of the element. -/
theorem hostNegf_apply {s : Shape} {φ : FTy} (a : FVec Ideal s φ) (i : s.Idx) : Host.negf a i = -(a i) := rfl

/-- The product of a column [B, 1] with a stack [N, 1, 1] of 1×1 matrices, contracting the column's unit axis with the
    stack's last axis: the result [B, N, 1] holds at (r, n, z) the product of the column's entry r and the stack's entry
    n. The contracted axis has extent 1: the sum has one term. -/
theorem dot_outer_apply {B N : Nat} {φ₁ φ₂ : FTy}
    (w : DotDims.WF ⟨2, ![B, 1]⟩ ⟨3, ![N, 1, 1]⟩ ⟨3, ![B, N, 1]⟩ [1] [2] [0] [0, 1] [] [])
    (prec : Option ContractPrecision) (A : FVec Ideal ⟨2, ![B, 1]⟩ φ₁) (Wt : FVec Ideal ⟨3, ![N, 1, 1]⟩ φ₂)
    (r : Fin B) (n : Fin N) (z : Fin 1) :
    Host.dotGeneral (⟨[1], [2], [0], [0, 1], [], [], w⟩ : DotDims _ _ _) prec A Wt (ix3 r n z)
      = A (ix2 r (0 : Fin 1)) * Wt (ix3 n (0 : Fin 1) (0 : Fin 1)) := by
  show FloatOps.dotGeneral _ prec _ A Wt (ix3 r n z) = _
  rw [Ideal.dotGeneral_apply,
    ← Equiv.sum_comp (contrEquiv1 (⟨[1], [2], [0], [0, 1], [], [], w⟩ : DotDims _ _ _) 1 rfl rfl).symm,
    Fin.sum_univ_one]
  have l2 : (⟨[1], [2], [0], [0, 1], [], [], w⟩ : DotDims ⟨2, ![B, 1]⟩ ⟨3, ![N, 1, 1]⟩ ⟨3, ![B, N, 1]⟩).lhsIdx (ix3 r n z)
      ((contrEquiv1 _ 1 rfl rfl).symm 0) = ix2 r (0 : Fin 1) := by
    funext ax; apply Fin.ext
    match ax with
    | ⟨0, _⟩ => simp [DotDims.lhsIdx]; rfl
    | ⟨1, _⟩ => exact Nat.lt_one_iff.mp (Fin.isLt _)
  have r3 : (⟨[1], [2], [0], [0, 1], [], [], w⟩ : DotDims ⟨2, ![B, 1]⟩ ⟨3, ![N, 1, 1]⟩ ⟨3, ![B, N, 1]⟩).rhsIdx (ix3 r n z)
      ((contrEquiv1 _ 1 rfl rfl).symm 0) = ix3 n (0 : Fin 1) (0 : Fin 1) := by
    funext ax; apply Fin.ext
    match ax with
    | ⟨0, _⟩ => simp [DotDims.rhsIdx]; rfl
    | ⟨1, _⟩ => exact Nat.lt_one_iff.mp (Fin.isLt _)
    | ⟨2, _⟩ => exact Nat.lt_one_iff.mp (Fin.isLt _)
  rw [l2, r3]

section Column0
variable {B K : Nat} (w : ScatterDims.WF ⟨2, ![B, K]⟩ ⟨1, ![1]⟩ ⟨1, ![B]⟩ [0] [1] [1] 0)

/-- A scatter into column 0, one update per row: the one scatter index is 0, so every window starts at 0 on both axes. -/
theorem col0_start (idx : IVec ⟨1, ![1]⟩ 32) (hidx : ∀ i, idx i = 0#32) (j : (⟨1, ![B]⟩ : Shape).Idx) (a : Fin 2) :
    (⟨[0], [1], [1], 0, w⟩ : ScatterDims ⟨2, ![B, K]⟩ ⟨1, ![1]⟩ ⟨1, ![B]⟩).start j idx a = 0 := by
  unfold ScatterDims.start
  split
  · rw [hidx]; rfl
  · rfl

/-- Update n lands on (row n, column 0). -/
theorem col0_resultIdx (hK : 0 < K) (idx : IVec ⟨1, ![1]⟩ 32) (hidx : ∀ i, idx i = 0#32) (j : (⟨1, ![B]⟩ : Shape).Idx) :
    (⟨[0], [1], [1], 0, w⟩ : ScatterDims ⟨2, ![B, K]⟩ ⟨1, ![1]⟩ ⟨1, ![B]⟩).resultIdx? j idx
      = some (ix2 (j 0) (⟨0, hK⟩ : Fin K)) := by
  have hj : (j 0).val < B := (j 0).isLt
  unfold ScatterDims.resultIdx?
  rw [dif_pos (fun a => by
    rw [col0_start w idx hidx j a]
    match a with
    | ⟨0, _⟩ =>
      show (0 : Int) ≤ 0 + ((j 0).val : Int) ∧ (0 : Int) + ((j 0).val : Int) < (B : Int)
      omega
    | ⟨1, _⟩ =>
      show (0 : Int) ≤ 0 + ((0 : Nat) : Int) ∧ (0 : Int) + ((0 : Nat) : Int) < (K : Int)
      omega)]
  refine congrArg some (funext fun a => Fin.ext ?_)
  show ((⟨[0], [1], [1], 0, w⟩ : ScatterDims ⟨2, ![B, K]⟩ ⟨1, ![1]⟩ ⟨1, ![B]⟩).start j idx a
      + ((⟨[0], [1], [1], 0, w⟩ : ScatterDims ⟨2, ![B, K]⟩ ⟨1, ![1]⟩ ⟨1, ![B]⟩).window j a : Int)).toNat = _
  rw [col0_start w idx hidx j a]
  match a with
  | ⟨0, _⟩ =>
    show ((0 : Int) + ((j 0).val : Int)).toNat = (j 0).val
    omega
  | ⟨1, _⟩ =>
    show ((0 : Int) + ((0 : Nat) : Int)).toNat = 0
    omega

/-- A scatter that writes one update per row into column 0 (the one scatter index is 0; update n goes to row n): column 0
    of the result holds the updates, every other column the operand. -/
theorem scatter_col0_apply {α : Type} (hK : 0 < K) (x : (⟨2, ![B, K]⟩ : Shape).Idx → α) (idx : IVec ⟨1, ![1]⟩ 32)
    (hidx : ∀ i, idx i = 0#32) (upd : (⟨1, ![B]⟩ : Shape).Idx → α) (r : Fin B) (k : Fin K) :
    Host.scatter (⟨[0], [1], [1], 0, w⟩ : ScatterDims ⟨2, ![B, K]⟩ ⟨1, ![1]⟩ ⟨1, ![B]⟩) (fun _ b => b) x idx upd (ix2 r k)
      = if k.val = 0 then upd (ix1 r) else x (ix2 r k) := by
  by_cases hk : k.val = 0
  · rw [if_pos hk]
    have ek : k = ⟨0, hK⟩ := Fin.ext hk
    refine Cert.Lib.scatter_set_hit _ x idx upd (ix2 r k) (ix1 r) ?_ ?_
    · rw [col0_resultIdx w hK idx hidx (ix1 r), ek]
      rfl
    · intro n' hn'
      rw [col0_resultIdx w hK idx hidx n'] at hn'
      have h0 : n' 0 = r := congrFun (Option.some.inj hn') 0
      rw [eq_ix1 n']
      exact congrArg ix1 h0
  · rw [if_neg hk]
    refine Cert.Lib.scatter_set_miss _ x idx upd (ix2 r k) (fun n hn => ?_)
    rw [col0_resultIdx w hK idx hidx n] at hn
    have h1 : (⟨0, hK⟩ : Fin K) = k := congrFun (Option.some.inj hn) 1
    exact hk (by rw [← h1])

end Column0

/-! ## The reference's arrays read at an index -/

/-- Sample r's feature x[r, 0]. -/
abbrev xOf (V0 : Valuation τ sig (Elt Ideal)) (r : Fin 65536) : EReal :=
  V0 (Proc.devRef .tc main_arg0) (ix2 r (0 : Fin 1))

/-- Node n's weight W[n, 0, 0] (0 past the last node). -/
abbrev wOfV (V0 : Valuation τ sig (Elt Ideal)) : Nat → EReal := wOf (V0 (Proc.devRef .tc main_arg1))

/-- Node n's bias b[n, 0] (0 past the last node). -/
abbrev bOfV (V0 : Valuation τ sig (Elt Ideal)) : Nat → EReal := bOf (V0 (Proc.devRef .tc main_arg2))

/-- The literal 1.0 broadcast to any shape reads 1 everywhere. -/
theorem ones_apply {T : Shape} (h : (⟨0, ![]⟩ : Shape).BroadcastsInDim T ![]) (j : T.Idx) :
    broadcastInDim T ![] h (constant (F := Ideal) S_ .f32 0x3F800000#32) j = (1 : EReal) := by
  rw [broadcastInDim_scalar_apply h, constant_apply, Ideal.ofBits_one_f32]

/-- The reference's spelling of the logistic function, 1 / (1 + e^(-t)) with the ones as arrays, read at an index where
    the ones read 1 and t reads t₀: the logistic function of t₀. -/
theorem logistic_spelled_apply {s : Shape} (one lin : FVec Ideal s .f32) (i : s.Idx) (t₀ : EReal)
    (h1 : one i = 1) (hl : lin i = t₀) :
    Host.divf one (addf one (Host.exp (Host.negf lin))) i = Ideal.logistic t₀ := by
  rw [hostDivf_apply, addf_apply, hostExp_apply, hostNegf_apply, h1, hl]
  rfl

/-- The bias [1024, 1] broadcast to [1, 1024, 1] and then along the samples to [65536, 1024, 1] reads b[n, 0] at
    (r, n, z). -/
theorem bias_apply (b : FVec Ideal S1024x1 .f32) (r : Fin 65536) (n : Fin 1024) (z : Fin 1) :
    broadcastInDim S65536x1024x1 ![0, 1, 2] bcast_S1x1024x1_S65536x1024x1_0_1_2
        (broadcastInDim S1x1024x1 ![1, 2] bcast_S1024x1_S1x1024x1_1_2 b) (ix3 r n z)
      = b (ix2 n (0 : Fin 1)) := by
  rw [broadcastInDim_apply _ bcast_S1x1024x1_S65536x1024x1_0_1_2 _ (ix3 r n z) (ix3 (0 : Fin 1) n (0 : Fin 1)) (fun a => by
      match a with
      | ⟨0, _⟩ => rfl
      | ⟨1, _⟩ => rfl
      | ⟨2, _⟩ => rfl),
    broadcastInDim_apply _ bcast_S1024x1_S1x1024x1_1_2 _ (ix3 (0 : Fin 1) n (0 : Fin 1)) (ix2 n (0 : Fin 1)) (fun a => by
      match a with
      | ⟨0, _⟩ => rfl
      | ⟨1, _⟩ => rfl)]

/-- The decisions: at (r, n, 0) the reference's 1 / (1 + e^(-(x[r,0]·W[n,0,0] + b[n,0]))) is node n's decision for
    sample r. The contraction runs over an axis of extent 1; the bias is broadcast along the samples. -/
theorem v9_apply (V0 : Valuation τ sig (Elt Ideal)) (r : Fin 65536) (n : Fin 1024) (z : Fin 1) :
    res_main_v9 V0 (ix3 r n z) = Cert.Tree.decide (xOf V0 r) (wOfV V0) (bOfV V0) n.val := by
  unfold res_main_v9 Cert.Tree.decide
  refine logistic_spelled_apply _ _ (ix3 r n z) _ (ones_apply _ _) ?_
  refine (addf_apply _ _ (ix3 r n z)).trans ?_
  refine congrArg₂ (· + ·) ?_ ?_
  · refine (dot_outer_apply _ none _ _ r n z).trans ?_
    exact congrArg (xOf V0 r * ·) (wOf_lt _ n).symm
  · exact (bias_apply _ r n z).trans (bOf_lt _ n).symm

/-- The pairs: at (r, n, 0) node n's decision for sample r, at (r, n, 1) one minus it. -/
theorem v12_apply (V0 : Valuation τ sig (Elt Ideal)) (r : Fin 65536) (n : Fin 1024) (s : Fin 2) :
    res_main_v12 V0 (ix3 r n s)
      = if s.val = 0 then Cert.Tree.decide (xOf V0 r) (wOfV V0) (bOfV V0) n.val
        else 1 - Cert.Tree.decide (xOf V0 r) (wOfV V0) (bOfV V0) n.val := by
  unfold res_main_v12
  refine (pairLast_apply (R := 65536) (m := 1024) _ _ _ r n s).trans ?_
  by_cases hs : s.val = 0
  · rw [if_pos hs, if_pos hs]
    exact v9_apply V0 r n 0
  · rw [if_neg hs, if_neg hs]
    refine (subf_apply _ _ _).trans ?_
    exact congrArg₂ (· - ·) (ones_apply _ _) (v9_apply V0 r n 0)

/-- The start: columns 0 and 1 hold 1, the tree's value at the unused index 0 and at the root. -/
theorem v13_apply (V0 : Valuation τ sig (Elt Ideal)) (r : Fin 65536) (k : Fin 2) :
    res_main_v13 V0 (ix2 r k) = Cert.Tree.tree (xOf V0 r) (wOfV V0) (bOfV V0) k.val := by
  unfold res_main_v13 Cert.Tree.tree
  refine (ones_apply _ _).trans ?_
  match k with
  | ⟨0, _⟩ => exact (reach_zero _).symm
  | ⟨1, _⟩ => exact (reach_one _).symm

/-! ## The levels: each appends the children of the newest nodes -/

/-- After the level of the root (node 1): columns 0 … 3 hold the tree. -/
theorem v20_apply (V0 : Valuation τ sig (Elt Ideal)) (r : Fin 65536) (k : Fin 4) :
    res_main_v20 V0 (ix2 r k) = Cert.Tree.tree (xOf V0 r) (wOfV V0) (bOfV V0) k.val := by
  unfold res_main_v20
  exact host_level_tree (B := 65536) (m := 1) (m2 := 2) (m4 := 4) (N := 1024) rfl rfl (by omega) _ _ _ _ _ _ _ _
    (xOf V0) (wOfV V0) (bOfV V0) (v12_apply V0) (v13_apply V0) r k

/-- After the level of the nodes 2 … 3: columns 0 … 7 hold the tree. -/
theorem v27_apply (V0 : Valuation τ sig (Elt Ideal)) (r : Fin 65536) (k : Fin 8) :
    res_main_v27 V0 (ix2 r k) = Cert.Tree.tree (xOf V0 r) (wOfV V0) (bOfV V0) k.val := by
  unfold res_main_v27
  exact host_level_tree (B := 65536) (m := 2) (m2 := 4) (m4 := 8) (N := 1024) rfl rfl (by omega) _ _ _ _ _ _ _ _
    (xOf V0) (wOfV V0) (bOfV V0) (v12_apply V0) (v20_apply V0) r k

/-- After the level of the nodes 4 … 7: columns 0 … 15 hold the tree. -/
theorem v34_apply (V0 : Valuation τ sig (Elt Ideal)) (r : Fin 65536) (k : Fin 16) :
    res_main_v34 V0 (ix2 r k) = Cert.Tree.tree (xOf V0 r) (wOfV V0) (bOfV V0) k.val := by
  unfold res_main_v34
  exact host_level_tree (B := 65536) (m := 4) (m2 := 8) (m4 := 16) (N := 1024) rfl rfl (by omega) _ _ _ _ _ _ _ _
    (xOf V0) (wOfV V0) (bOfV V0) (v12_apply V0) (v27_apply V0) r k

/-- After the level of the nodes 8 … 15: columns 0 … 31 hold the tree. -/
theorem v41_apply (V0 : Valuation τ sig (Elt Ideal)) (r : Fin 65536) (k : Fin 32) :
    res_main_v41 V0 (ix2 r k) = Cert.Tree.tree (xOf V0 r) (wOfV V0) (bOfV V0) k.val := by
  unfold res_main_v41
  exact host_level_tree (B := 65536) (m := 8) (m2 := 16) (m4 := 32) (N := 1024) rfl rfl (by omega) _ _ _ _ _ _ _ _
    (xOf V0) (wOfV V0) (bOfV V0) (v12_apply V0) (v34_apply V0) r k

/-- After the level of the nodes 16 … 31: columns 0 … 63 hold the tree. -/
theorem v48_apply (V0 : Valuation τ sig (Elt Ideal)) (r : Fin 65536) (k : Fin 64) :
    res_main_v48 V0 (ix2 r k) = Cert.Tree.tree (xOf V0 r) (wOfV V0) (bOfV V0) k.val := by
  unfold res_main_v48
  exact host_level_tree (B := 65536) (m := 16) (m2 := 32) (m4 := 64) (N := 1024) rfl rfl (by omega) _ _ _ _ _ _ _ _
    (xOf V0) (wOfV V0) (bOfV V0) (v12_apply V0) (v41_apply V0) r k

/-- After the level of the nodes 32 … 63: columns 0 … 127 hold the tree. -/
theorem v55_apply (V0 : Valuation τ sig (Elt Ideal)) (r : Fin 65536) (k : Fin 128) :
    res_main_v55 V0 (ix2 r k) = Cert.Tree.tree (xOf V0 r) (wOfV V0) (bOfV V0) k.val := by
  unfold res_main_v55
  exact host_level_tree (B := 65536) (m := 32) (m2 := 64) (m4 := 128) (N := 1024) rfl rfl (by omega) _ _ _ _ _ _ _ _
    (xOf V0) (wOfV V0) (bOfV V0) (v12_apply V0) (v48_apply V0) r k

/-- After the level of the nodes 64 … 127: columns 0 … 255 hold the tree. -/
theorem v62_apply (V0 : Valuation τ sig (Elt Ideal)) (r : Fin 65536) (k : Fin 256) :
    res_main_v62 V0 (ix2 r k) = Cert.Tree.tree (xOf V0 r) (wOfV V0) (bOfV V0) k.val := by
  unfold res_main_v62
  exact host_level_tree (B := 65536) (m := 64) (m2 := 128) (m4 := 256) (N := 1024) rfl rfl (by omega) _ _ _ _ _ _ _ _
    (xOf V0) (wOfV V0) (bOfV V0) (v12_apply V0) (v55_apply V0) r k

/-- After the level of the nodes 128 … 255: columns 0 … 511 hold the tree. -/
theorem v69_apply (V0 : Valuation τ sig (Elt Ideal)) (r : Fin 65536) (k : Fin 512) :
    res_main_v69 V0 (ix2 r k) = Cert.Tree.tree (xOf V0 r) (wOfV V0) (bOfV V0) k.val := by
  unfold res_main_v69
  exact host_level_tree (B := 65536) (m := 128) (m2 := 256) (m4 := 512) (N := 1024) rfl rfl (by omega) _ _ _ _ _ _ _ _
    (xOf V0) (wOfV V0) (bOfV V0) (v12_apply V0) (v62_apply V0) r k

/-- After the level of the nodes 256 … 511: columns 0 … 1023 hold the tree. -/
theorem v76_apply (V0 : Valuation τ sig (Elt Ideal)) (r : Fin 65536) (k : Fin 1024) :
    res_main_v76 V0 (ix2 r k) = Cert.Tree.tree (xOf V0 r) (wOfV V0) (bOfV V0) k.val := by
  unfold res_main_v76
  exact host_level_tree (B := 65536) (m := 256) (m2 := 512) (m4 := 1024) (N := 1024) rfl rfl (by omega) _ _ _ _ _ _ _ _
    (xOf V0) (wOfV V0) (bOfV V0) (v12_apply V0) (v69_apply V0) r k

/-- The reference run's result term (the generated run's, at any valuation of the arguments) is the tree of the
    argument arrays. -/
theorem result_eq (V0 : Valuation τ sig (Elt Ideal)) :
    Host.scatter scatter_S65536x2048_S1_S65536_0_1_1_0 (fun _ b => b) (concatenate S65536x2048 1 [⟨S65536x1024, (res_main_v76 V0)⟩, ⟨S65536x1024, (shapeCast _ (mulf (broadcastInDim S65536x512x2 ![0, 1, 2] bcast_S65536x512x1_S65536x512x2_0_1_2 (broadcastInDim S65536x512x1 ![0, 1] bcast_S65536x512_S65536x512x1_0_1 (extractStridedSlice S65536x512 ![0, 512] (res_main_v76 V0) slices_S65536x1024_S65536x512_0_512))) (extractStridedSlice S65536x512x2 ![0, 512, 0] (res_main_v12 V0) slices_S65536x1024x2_S65536x512x2_0_512_0)) shapeCasts_S65536x512x2_S65536x1024)⟩] concatenates_S65536x1024_S65536x1024_S65536x2048_d1) (broadcastInDim S1 ![] bcast_S_S1 (constantI S_ 32 0#32)) (broadcastInDim S65536 ![] bcast_S_S65536 (constant (F := Ideal) S_ .f32 0x3F800000#32))
      = Cert.Tree.G (V0 (Proc.devRef .tc main_arg0)) (V0 (Proc.devRef .tc main_arg1)) (V0 (Proc.devRef .tc main_arg2)) := by
  funext i
  obtain ⟨r, k, rfl⟩ : ∃ (r : Fin 65536) (k : Fin 2048), i = ix2 r k := ⟨i 0, i 1, eq_ix2 i⟩
  show _ = Cert.Tree.tree (xOf V0 r) (wOfV V0) (bOfV V0) k.val
  refine (scatter_col0_apply (B := 65536) (K := 2048) _ (by omega) _ _ (fun _ => rfl) _ r k).trans ?_
  by_cases hk : k.val = 0
  · -- column 0: the update 1, the tree's value at the unused index 0
    rw [if_pos hk, hk]
    exact (ones_apply _ _).trans (reach_zero _).symm
  · -- any other column: the last level, of the nodes 512 … 1023
    rw [if_neg hk]
    exact host_level_tree (B := 65536) (m := 512) (m2 := 1024) (m4 := 2048) (N := 1024) rfl rfl (by omega) _ _ _ _ _ _ _ _
      (xOf V0) (wOfV V0) (bOfV V0) (v12_apply V0) (v76_apply V0) r k

/-- The reference's run with its result named: the tree of the argument arrays; the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v86)
          = Cert.Tree.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq (launchContents m c)), (h c).2⟩)
    (Cert.ReferenceIdeal.RunH.run (F := Ideal) m ρ)

end Cert.ReferenceIdeal.RefValue

end
-- ==== Proof.lean ====
/-
  The kernel and its reference compute one soft decision tree over 1024 inner nodes, numbered as a binary heap, for
  65536 samples with one feature each: node n decides with the logistic function of x·W[n] + b[n], and column k of the
  result [65536, 2048] is the probability of arriving at node k — the product, down from the root, of the decision for
  a left child and one minus the decision for a right child; columns 0 and 1 hold 1.

  The kernel walks down the tree level by level on blocks of 1024 samples, storing the children of the nodes
  m … 2m − 1 in the columns [2m, 4m) of its block; the reference keeps one array of all the nodes found so far, appends
  a level at a time, and writes the decision as 1 / (1 + e^(−z)), which IS the logistic function on the extended reals.
  Both results are the same function of the arguments (Cert.Tree.G), index by index; no law of the extended reals
  beyond the recursion itself is used, so the precondition is not opened.
-/
import proofs.«170250_j83193516523595_1_alg».proof.Defs
import proofs.«170250_j83193516523595_1_alg».proof.Proof.Gen.Kernel
import proofs.«170250_j83193516523595_1_alg».proof.Proof.Gen.KernelIdeal
import proofs.«170250_j83193516523595_1_alg».proof.Proof.Gen.ReferenceIdeal
import proofs.«170250_j83193516523595_1_alg».proof.Proof.Gen.Pre_finite_inputs
import proofs.«170250_j83193516523595_1_alg».proof.Proof.KernelFrame
import proofs.«170250_j83193516523595_1_alg».proof.Proof.KernelValue
import proofs.«170250_j83193516523595_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.GenP.frame m ρ

/-- So does the kernel read at the extended reals. -/
theorem frame_ki : Cert.frame_KernelIdeal := fun m ρ _ => Cert.KernelIdeal.GenP.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.RunH.run (F := Ideal) m ρ)

/-- Both programs end with the tree of the argument arrays, and the arguments agree. -/
theorem algebraic : Cert.algebraic_KernelIdeal_ReferenceIdeal := by
  intro m ρ m' ρ' _ hagree
  refine ⟨fun c => Cert.Tree.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
